-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x800000 : Shape := ⟨2, ![2, 800000]⟩
abbrev S1000x128 : Shape := ⟨2, ![1000, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S1000x128 : S_.BroadcastsInDim S1000x128 (![] : Fin 0 → Fin S1000x128.rank)
  reducesTo_S1000x128_S_d0_1 : S1000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S128 .f32) (main_arg7 : FVec F S128x1 .f32) (main_arg8 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg7
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : IVec S100000 32) (main_arg1 : IVec S2x800000 32) (main_arg2 : FVec F S1000x128 .f32) (main_arg3 : FVec F S128x128 .f32) (main_arg4 : FVec F S128 .f32) (main_arg5 : FVec F S128x128 .f32) (main_arg6 : FVec F S128 .f32) (main_arg7 : FVec F S128x1 .f32) (main_arg8 : FVec F S1 .f32) : IVec S_ 1 :=
  let main_v0 : FVec F S1000x128 .f32 := Host.absf main_arg2
  let main_cst : FVec F S_ .f32 := constant S_ .f32 0x7F800000#32
  let main_v1 : FVec F S1000x128 .f32 := broadcastInDim S1000x128 ![] bcast_S_S1000x128 main_cst
  let main_v2 : IVec S1000x128 1 := cmpf .olt main_v0 main_v1
  let main_c : IVec S_ 1 := constantI S_ 1 1#1
  let main_v3 : IVec S_ 1 := (fun x v => Host.reduce IntOp.andi x v reducesTo_S1000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000 : Shape := ⟨1, ![100000]⟩
abbrev S2x800000 : Shape := ⟨2, ![2, 800000]⟩
abbrev S1000x128 : Shape := ⟨2, ![1000, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S100000x1 : Shape := ⟨2, ![100000, 1]⟩
abbrev S100000x128 : Shape := ⟨2, ![100000, 128]⟩
abbrev S5000x128 : Shape := ⟨2, ![5000, 128]⟩
abbrev S900000x128 : Shape := ⟨2, ![900000, 128]⟩
abbrev S1x128 : Shape := ⟨2, ![1, 128]⟩

abbrev nBuf : Space → Nat
  | .hbm => 106
  | .vmem => 19
  | .smem => 0
  | _ => 0

abbrev bufTy : (tb : Table) → Fin (tcTables nBuf tb) → BufTy
  | .hbm, ⟨0, _⟩ => ⟨S100000, .i32⟩
  | .hbm, ⟨1, _⟩ => ⟨S2x800000, .i32⟩
  | .hbm, ⟨2, _⟩ => ⟨S1000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S100000, .i32⟩
  | .hbm, ⟨14, _⟩ => ⟨S900000, .i32⟩
  | .hbm, ⟨15, _⟩ => ⟨S900000, .i32⟩
  | .hbm, ⟨16, _⟩ => ⟨S_, .f32⟩
  | .hbm, ⟨17, _⟩ => ⟨S900000, .f32⟩
  | .hbm, ⟨18, _⟩ => ⟨S_, .f32⟩
  | .hbm, ⟨19, _⟩ => ⟨S100000, .f32⟩
  | .hbm, ⟨20, _⟩ => ⟨S900000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S900000, .i32⟩
  | .hbm, ⟨35, _⟩ => ⟨S900000, .i1⟩
  | .hbm, ⟨36, _⟩ => ⟨S_, .i32⟩
  | .hbm, ⟨37, _⟩ => ⟨S900000, .i32⟩
  | .hbm, ⟨38, _⟩ => ⟨S900000, .i32⟩
  | .hbm, ⟨39, _⟩ => ⟨S900000, .i32⟩
  | .hbm, ⟨40, _⟩ => ⟨S900000x1, .i32⟩
  | .hbm, ⟨41, _⟩ => ⟨S900000, .f32⟩
  | .hbm, ⟨42, _⟩ => ⟨S_, .i32⟩
  | .hbm, ⟨43, _⟩ => ⟨S900000, .i32⟩
  | .hbm, ⟨44, _⟩ => ⟨S900000, .i1⟩
  | .hbm, ⟨45, _⟩ => ⟨S_, .i32⟩
  | .hbm, ⟨46, _⟩ => ⟨S900000, .i32⟩
  | .hbm, ⟨47, _⟩ => ⟨S900000, .i32⟩
  | .hbm, ⟨48, _⟩ => ⟨S900000, .i32⟩
  | .hbm, ⟨49, _⟩ => ⟨S900000x1, .i32⟩
  | .hbm, ⟨50, _⟩ => ⟨S900000, .f32⟩
  | .hbm, ⟨51, _⟩ => ⟨S900000, .f32⟩
  | .hbm, ⟨52, _⟩ => ⟨S_, .i32⟩
  | .hbm, ⟨53, _⟩ => ⟨S100000, .i32⟩
  | .hbm, ⟨54, _⟩ => ⟨S100000, .i1⟩
  | .hbm, ⟨55, _⟩ => ⟨S_, .i32⟩
  | .hbm, ⟨56, _⟩ => ⟨S100000, .i32⟩
  | .hbm, ⟨57, _⟩ => ⟨S100000, .i32⟩
  | .hbm, ⟨58, _⟩ => ⟨S100000, .i32⟩
  | .hbm, ⟨59, _⟩ => ⟨S100000x1, .i32⟩
  | .hbm, ⟨60, _⟩ => ⟨S100000x128, .f32⟩
  | .hbm, ⟨61, _⟩ => ⟨S100000x128, .f32⟩
  | .hbm, ⟨62, _⟩ => ⟨S_, .i32⟩
  | .hbm, ⟨63, _⟩ => ⟨S900000, .i32⟩
  | .hbm, ⟨64, _⟩ => ⟨S900000, .i1⟩
  | .hbm, ⟨65, _⟩ => ⟨S_, .i32⟩
  | .hbm, ⟨66, _⟩ => ⟨S900000, .i32⟩
  | .hbm, ⟨67, _⟩ => ⟨S900000, .i32⟩
  | .hbm, ⟨68, _⟩ => ⟨S900000, .i32⟩
  | .hbm, ⟨69, _⟩ => ⟨S900000x1, .i32⟩
  | .hbm, ⟨70, _⟩ => ⟨S900000x128, .f32⟩
  | .hbm, ⟨71, _⟩ => ⟨S900000x1, .f32⟩
  | .hbm, ⟨72, _⟩ => ⟨S900000x128, .f32⟩
  | .hbm, ⟨73, _⟩ => ⟨S900000x128, .f32⟩
  | .hbm, ⟨74, _⟩ => ⟨S_, .f32⟩
  | .hbm, ⟨75, _⟩ => ⟨S100000x128, .f32⟩
  | .hbm, ⟨76, _⟩ => ⟨S900000x1, .i32⟩
  | .hbm, ⟨77, _⟩ => ⟨S100000x128, .f32⟩
  | .hbm, ⟨78, _⟩ => ⟨S_, .f32⟩
  | .hbm, ⟨79, _⟩ => ⟨S128, .f32⟩
  | .hbm, ⟨80, _⟩ => ⟨S100000x128, .f32⟩
  | .hbm, ⟨81, _⟩ => ⟨S_, .i32⟩
  | .hbm, ⟨82, _⟩ => ⟨S900000, .i32⟩
  | .hbm, ⟨83, _⟩ => ⟨S900000, .i1⟩
  | .hbm, ⟨84, _⟩ => ⟨S_, .i32⟩
  | .hbm, ⟨85, _⟩ => ⟨S900000, .i32⟩
  | .hbm, ⟨86, _⟩ => ⟨S900000, .i32⟩
  | .hbm, ⟨87, _⟩ => ⟨S900000, .i32⟩
  | .hbm, ⟨88, _⟩ => ⟨S900000x1, .i32⟩
  | .hbm, ⟨89, _⟩ => ⟨S900000x128, .f32⟩
  | .hbm, ⟨90, _⟩ => ⟨S900000x1, .f32⟩
  | .hbm, ⟨91, _⟩ => ⟨S900000x128, .f32⟩
  | .hbm, ⟨92, _⟩ => ⟨S900000x128, .f32⟩
  | .hbm, ⟨93, _⟩ => ⟨S_, .f32⟩
  | .hbm, ⟨94, _⟩ => ⟨S100000x128, .f32⟩
  | .hbm, ⟨95, _⟩ => ⟨S900000x1, .i32⟩
  | .hbm, ⟨96, _⟩ => ⟨S100000x128, .f32⟩
  | .hbm, ⟨97, _⟩ => ⟨S_, .i32⟩
  | .hbm, ⟨98, _⟩ => ⟨S_, .f32⟩
  | .hbm, ⟨99, _⟩ => ⟨S128x128, .f32⟩
  | .hbm, ⟨100, _⟩ => ⟨S_, .i32⟩
  | .hbm, ⟨101, _⟩ => ⟨S_, .f32⟩
  | .hbm, ⟨102, _⟩ => ⟨S128, .f32⟩
  | .hbm, ⟨103, _⟩ => ⟨S100000x128, .f32⟩
  | .hbm, ⟨104, _⟩ => ⟨S100000x1, .f32⟩
  | .hbm, ⟨105, _⟩ => ⟨S100000, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128, .f32⟩
  | .local _ .vmem, ⟨15, _⟩ => ⟨S128x128, .f32⟩
  | .local _ .vmem, ⟨16, _⟩ => ⟨S128, .f32⟩
  | .local _ .vmem, ⟨17, _⟩ => ⟨S5000x128, .f32⟩
  | .local _ .vmem, ⟨18, _⟩ => ⟨S5000x128, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_c_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_9 : Ref sig .tc := ⟨.hbm, 62, rfl⟩
abbrev main_v40 : Ref sig .tc := ⟨.hbm, 63, rfl⟩
abbrev main_v41 : Ref sig .tc := ⟨.hbm, 64, rfl⟩
abbrev main_c_10 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_11 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_12 : Ref sig .tc := ⟨.hbm, 78, rfl⟩
abbrev main_v53 : Ref sig .tc := ⟨.hbm, 79, rfl⟩
abbrev main_v54 : Ref sig .tc := ⟨.hbm, 80, rfl⟩
abbrev main_c_13 : Ref sig .tc := ⟨.hbm, 81, rfl⟩
abbrev main_v55 : Ref sig .tc := ⟨.hbm, 82, rfl⟩
abbrev main_v56 : Ref sig .tc := ⟨.hbm, 83, rfl⟩
abbrev main_c_14 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_15 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c_16 : Ref sig .tc := ⟨.hbm, 97, rfl⟩
abbrev main_call1_v0 : Ref sig .tc := ⟨.hbm, 98, rfl⟩
abbrev main_v68 : Ref sig .tc := ⟨.hbm, 99, rfl⟩
abbrev main_c_17 : Ref sig .tc := ⟨.hbm, 100, rfl⟩
abbrev main_call2_v0 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem4_1 : DmaSem sig := 18

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S100000_S900000_d0 : Shape.Concatenates [S800000, S100000] S900000 0
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S100000_S100000x1_0 : S100000.BroadcastsInDim S100000x1 (![0] : Fin 1 → Fin S100000x1.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  bcast_S_S128 : S_.BroadcastsInDim S128 (![] : Fin 0 → Fin S128.rank)
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  shapeCasts_S128_S128 : S128.ShapeCasts S128
  pads_S128x1_S128x128_000_01270 : S128x1.Pads (![0, 0] : Fin 2 → Nat) ![0, 127] ![0, 0] S128x128
  h_S_ : 0 < S_.numel
  pads_S1_S128_01270 : S1.Pads (![0] : Fin 1 → Nat) ![127] ![0] S128
  shapeCasts_S128x128_S128x128 : S128x128.ShapeCasts S128x128
  slices_S100000x128_S100000x1_0_0 : S100000x128.Slices ![0, 0] S100000x1
  shapeCasts_S100000x1_S100000 : S100000x1.ShapeCasts S100000
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  gather_S1000x128_S100000x1_S100000x128_1_0_n_n_0_1_1128_wf : GatherDims.WF S1000x128 S100000x1 S100000x128 [1] [0] [] [0] [] 1 ![1, 128]
  dot_S5000x128_S128x128_S5000x128_1_0_0_1_n_n_wf : DotDims.WF S5000x128 S128x128 S5000x128 [1] [0] [0] [1] [] []
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S1000x128_S100000x1_S100000x128_1_0_n_n_0_1_1128 : GatherDims S1000x128 S100000x1 S100000x128 where
  offsetDims := [1]
  collapsedSliceDims := [0]
  operandBatchingDims := []
  startIndicesBatchingDims := []
  startIndexMap := [0]
  indexVectorDim := 1
  sliceSizes := ![1, 128]
  wf := gather_S1000x128_S100000x1_S100000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf

abbrev win0_0 : Pipeline.Window sig grid0 :=
  Pipeline.Window.ofSpec (Memref.whole main_v38) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v54) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v67) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v68) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v69) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v70) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000 : Shape := ⟨1, ![100000]⟩
abbrev S2x800000 : Shape := ⟨2, ![2, 800000]⟩
abbrev S1000x128 : Shape := ⟨2, ![1000, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S100000x1 : Shape := ⟨2, ![100000, 1]⟩
abbrev S100000x128 : Shape := ⟨2, ![100000, 128]⟩
abbrev S900000 : Shape := ⟨1, ![900000]⟩
abbrev S900000x1 : Shape := ⟨2, ![900000, 1]⟩
abbrev S900000x128 : Shape := ⟨2, ![900000, 128]⟩
abbrev S1x128 : Shape := ⟨2, ![1, 128]⟩
abbrev S1x1 : Shape := ⟨2, ![1, 1]⟩

abbrev nBuf : Space → Nat
  | .hbm => 151
  | .vmem => 0
  | .smem => 0
  | _ => 0

abbrev hbmTy0_0 (i : Nat) : BufTy := match i % 128 with
  | 0 => ⟨S100000, .i32⟩
  | 1 => ⟨S2x800000, .i32⟩
  | 2 => ⟨S1000x128, .f32⟩
  | 3 => ⟨S128x128, .f32⟩
  | 4 => ⟨S128, .f32⟩
  | 5 => ⟨S128x128, .f32⟩
  | 6 => ⟨S128, .f32⟩
  | 7 => ⟨S128x1, .f32⟩
  | 8 => ⟨S1, .f32⟩
  | 9 => ⟨S1x800000, .i32⟩
  | 10 => ⟨S800000, .i32⟩
  | 11 => ⟨S1x800000, .i32⟩
  | 12 => ⟨S800000, .i32⟩
  | 13 => ⟨S_, .i32⟩
  | 14 => ⟨S100000, .i32⟩
  | 15 => ⟨S100000, .i1⟩
  | 16 => ⟨S_, .i32⟩
  | 17 => ⟨S100000, .i32⟩
  | 18 => ⟨S100000, .i32⟩
  | 19 => ⟨S100000, .i32⟩
  | 20 => ⟨S100000x1, .i32⟩
  | 21 => ⟨S100000x128, .f32⟩
  | 22 => ⟨S100000x128, .f32⟩
  | 23 => ⟨S100000, .i32⟩
  | 24 => ⟨S900000, .i32⟩
  | 25 => ⟨S900000, .i32⟩
  | 26 => ⟨S_, .f32⟩
  | 27 => ⟨S900000, .f32⟩
  | 28 => ⟨S_, .f32⟩
  | 29 => ⟨S100000, .f32⟩
  | 30 => ⟨S900000x1, .i32⟩
  | 31 => ⟨S100000, .f32⟩
  | 32 => ⟨S_, .f32⟩
  | 33 => ⟨S100000, .f32⟩
  | 34 => ⟨S100000, .i1⟩
  | 35 => ⟨S_, .f32⟩
  | 36 => ⟨S100000, .f32⟩
  | 37 => ⟨S100000, .f32⟩
  | 38 => ⟨S100000, .f32⟩
  | 39 => ⟨S_, .f32⟩
  | 40 => ⟨S_, .f32⟩
  | 41 => ⟨S100000, .f32⟩
  | 42 => ⟨S100000, .f32⟩
  | 43 => ⟨S_, .i32⟩
  | 44 => ⟨S900000, .i32⟩
  | 45 => ⟨S900000, .i1⟩
  | 46 => ⟨S_, .i32⟩
  | 47 => ⟨S900000, .i32⟩
  | 48 => ⟨S900000, .i32⟩
  | 49 => ⟨S900000, .i32⟩
  | 50 => ⟨S900000x1, .i32⟩
  | 51 => ⟨S900000, .f32⟩
  | 52 => ⟨S_, .i32⟩
  | 53 => ⟨S900000, .i32⟩
  | 54 => ⟨S900000, .i1⟩
  | 55 => ⟨S_, .i32⟩
  | 56 => ⟨S900000, .i32⟩
  | 57 => ⟨S900000, .i32⟩
  | 58 => ⟨S900000, .i32⟩
  | 59 => ⟨S900000x1, .i32⟩
  | 60 => ⟨S900000, .f32⟩
  | 61 => ⟨S900000, .f32⟩
  | 62 => ⟨S_, .i32⟩
  | 63 => ⟨S900000, .i32⟩
  | 64 => ⟨S900000, .i1⟩
  | 65 => ⟨S_, .i32⟩
  | 66 => ⟨S900000, .i32⟩
  | 67 => ⟨S900000, .i32⟩
  | 68 => ⟨S900000, .i32⟩
  | 69 => ⟨S900000x1, .i32⟩
  | 70 => ⟨S900000x128, .f32⟩
  | 71 => ⟨S900000x1, .f32⟩
  | 72 => ⟨S900000x128, .f32⟩
  | 73 => ⟨S900000x128, .f32⟩
  | 74 => ⟨S_, .f32⟩
  | 75 => ⟨S100000x128, .f32⟩
  | 76 => ⟨S900000x1, .i32⟩
  | 77 => ⟨S100000x128, .f32⟩
  | 78 => ⟨S1x128, .f32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S100000x128, .f32⟩
  | 85 => ⟨S100000, .i32⟩
  | 86 => ⟨S900000, .i32⟩
  | 87 => ⟨S900000, .i32⟩
  | 88 => ⟨S_, .f32⟩
  | 89 => ⟨S900000, .f32⟩
  | 90 => ⟨S_, .f32⟩
  | 91 => ⟨S100000, .f32⟩
  | 92 => ⟨S900000x1, .i32⟩
  | 93 => ⟨S100000, .f32⟩
  | 94 => ⟨S_, .f32⟩
  | 95 => ⟨S100000, .f32⟩
  | 96 => ⟨S100000, .i1⟩
  | 97 => ⟨S_, .f32⟩
  | 98 => ⟨S100000, .f32⟩
  | 99 => ⟨S100000, .f32⟩
  | 100 => ⟨S100000, .f32⟩
  | 101 => ⟨S_, .f32⟩
  | 102 => ⟨S_, .f32⟩
  | 103 => ⟨S100000, .f32⟩
  | 104 => ⟨S100000, .f32⟩
  | 105 => ⟨S_, .i32⟩
  | 106 => ⟨S900000, .i32⟩
  | 107 => ⟨S900000, .i1⟩
  | 108 => ⟨S_, .i32⟩
  | 109 => ⟨S900000, .i32⟩
  | 110 => ⟨S900000, .i32⟩
  | 111 => ⟨S900000, .i32⟩
  | 112 => ⟨S900000x1, .i32⟩
  | 113 => ⟨S900000, .f32⟩
  | 114 => ⟨S_, .i32⟩
  | 115 => ⟨S900000, .i32⟩
  | 116 => ⟨S900000, .i1⟩
  | 117 => ⟨S_, .i32⟩
  | 118 => ⟨S900000, .i32⟩
  | 119 => ⟨S900000, .i32⟩
  | 120 => ⟨S900000, .i32⟩
  | 121 => ⟨S900000x1, .i32⟩
  | 122 => ⟨S900000, .f32⟩
  | 123 => ⟨S900000, .f32⟩
  | 124 => ⟨S_, .i32⟩
  | 125 => ⟨S900000, .i32⟩
  | 126 => ⟨S900000, .i1⟩
  | 127 => ⟨S_, .i32⟩
  | _ => ⟨S100000, .i32⟩

abbrev hbmTy0_1 (i : Nat) : BufTy := match i % 128 with
  | 0 => ⟨S900000, .i32⟩
  | 1 => ⟨S900000, .i32⟩
  | 2 => ⟨S900000, .i32⟩
  | 3 => ⟨S900000x1, .i32⟩
  | 4 => ⟨S900000x128, .f32⟩
  | 5 => ⟨S900000x1, .f32⟩
  | 6 => ⟨S900000x128, .f32⟩
  | 7 => ⟨S900000x128, .f32⟩
  | 8 => ⟨S_, .f32⟩
  | 9 => ⟨S100000x128, .f32⟩
  | 10 => ⟨S900000x1, .i32⟩
  | 11 => ⟨S100000x128, .f32⟩
  | 12 => ⟨S1x128, .f32⟩
  | 13 => ⟨S100000x128, .f32⟩
  | 14 => ⟨S100000x128, .f32⟩
  | 15 => ⟨S_, .f32⟩
  | 16 => ⟨S100000x128, .f32⟩
  | 17 => ⟨S100000x128, .f32⟩
  | 18 => ⟨S100000x1, .f32⟩
  | 19 => ⟨S1x1, .f32⟩
  | 20 => ⟨S100000x1, .f32⟩
  | 21 => ⟨S100000x1, .f32⟩
  | 22 => ⟨S100000, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_call0_v0 : Ref sig .tc := ⟨.hbm, 40, rfl⟩
abbrev main_call0_v1 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_c_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_9 : Ref sig .tc := ⟨.hbm, 62, rfl⟩
abbrev main_v40 : Ref sig .tc := ⟨.hbm, 63, rfl⟩
abbrev main_v41 : Ref sig .tc := ⟨.hbm, 64, rfl⟩
abbrev main_c_10 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_11 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_call1_cst : Ref sig .tc := ⟨.hbm, 81, rfl⟩
abbrev main_call1_v0 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_cst_13 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_14 : Ref sig .tc := ⟨.hbm, 94, rfl⟩
abbrev main_v65 : Ref sig .tc := ⟨.hbm, 95, rfl⟩
abbrev main_v66 : Ref sig .tc := ⟨.hbm, 96, rfl⟩
abbrev main_cst_15 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_16 : Ref sig .tc := ⟨.hbm, 101, rfl⟩
abbrev main_call2_v0 : Ref sig .tc := ⟨.hbm, 102, rfl⟩
abbrev main_call2_v1 : Ref sig .tc := ⟨.hbm, 103, rfl⟩
abbrev main_v70 : Ref sig .tc := ⟨.hbm, 104, rfl⟩
abbrev main_c_17 : Ref sig .tc := ⟨.hbm, 105, rfl⟩
abbrev main_v71 : Ref sig .tc := ⟨.hbm, 106, rfl⟩
abbrev main_v72 : Ref sig .tc := ⟨.hbm, 107, rfl⟩
abbrev main_c_18 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_c_19 : Ref sig .tc := ⟨.hbm, 114, rfl⟩
abbrev main_v78 : Ref sig .tc := ⟨.hbm, 115, rfl⟩
abbrev main_v79 : Ref sig .tc := ⟨.hbm, 116, rfl⟩
abbrev main_c_20 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_c_21 : Ref sig .tc := ⟨.hbm, 124, rfl⟩
abbrev main_v86 : Ref sig .tc := ⟨.hbm, 125, rfl⟩
abbrev main_v87 : Ref sig .tc := ⟨.hbm, 126, rfl⟩
abbrev main_c_22 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_23 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_call3_cst : Ref sig .tc := ⟨.hbm, 143, rfl⟩
abbrev main_call3_v0 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S100000 : S_.BroadcastsInDim S100000 (![] : Fin 0 → Fin S100000.rank)
  bcast_S100000_S100000x1_0 : S100000.BroadcastsInDim S100000x1 (![0] : Fin 1 → Fin S100000x1.rank)
  concatenates_S800000_S100000_S900000_d0 : Shape.Concatenates [S800000, S100000] S900000 0
  bcast_S_S900000 : S_.BroadcastsInDim S900000 (![] : Fin 0 → Fin S900000.rank)
  bcast_S900000_S900000x1_0 : S900000.BroadcastsInDim S900000x1 (![0] : Fin 1 → Fin S900000x1.rank)
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S1000x128_S100000x1_S100000x128_1_0_n_n_0_1_1128_wf : GatherDims.WF S1000x128 S100000x1 S100000x128 [1] [0] [] [0] [] 1 ![1, 128]
  dot_S100000x128_S128x128_S100000x128_1_0_0_1_n_n_wf : DotDims.WF S100000x128 S128x128 S100000x128 [1] [0] [0] [1] [] []
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S100000x128_S128x1_S100000x1_1_0_0_1_n_n_wf : DotDims.WF S100000x128 S128x1 S100000x1 [1] [0] [0] [1] [] []

variable [Facts₀]

def gather_S1000x128_S100000x1_S100000x128_1_0_n_n_0_1_1128 : GatherDims S1000x128 S100000x1 S100000x128 where
  offsetDims := [1]
  collapsedSliceDims := [0]
  operandBatchingDims := []
  startIndicesBatchingDims := []
  startIndexMap := [0]
  indexVectorDim := 1
  sliceSizes := ![1, 128]
  wf := gather_S1000x128_S100000x1_S100000x128_1_0_n_n_0_1_1128_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.Spec.lean ====
/-
  The network both programs compute, as one composition of whole-array functions.

  Inputs: node ids x, an edge list, an embedding table, and the weights W1, b1, W2, b2, Wf, bf.  With
  src / dst the edge endpoints followed by one self loop per node, and norm(e) = dinv(src e) * dinv(dst e) where
  dinv = deg > 0 ? rsqrt(max(deg, 1e-12)) : 0 and deg counts the edges into a node:

    aggr lin       = the sum, into row dst(e), of norm(e) * lin[src(e)]  over all edges e       (100000 x 128)
    layer X W b    = max(aggr (X W) + b, 0)
    out            = (layer (layer emb[x] W1 b1) W2 b2) Wf + bf                                   (100000)

  The index vectors, norm and the gathered embedding are computed by the same host operations in both programs;
  they are parameters here.  Only the dense products differ between the programs (one whole product in the
  reference; in the kernel a product per block of 5000 rows, the last one against Wf padded to 128 columns with
  the result read back from column 0), and at the exact instance those are equal entry by entry.
-/
import proofs.«146276_j85933705659009_1_alg».proof.Proof.Gen.ReferenceIdeal
import Idealize.ShloMosaic.PureOps.Ideal

noncomputable section

namespace Cert.Spec

open Idealize.ShloMosaic Cert.ReferenceIdeal Cert.ReferenceIdeal.Gen

variable {F : FTy → Type} [FloatOps F]

/-- A negative index counts from the end: i < 0 ? i + 100000 : i. -/
def wrapIdx (s : (⟨S900000, .i32⟩ : BufTy).Contents (Elt F)) : (⟨S900000, .i32⟩ : BufTy).Contents (Elt F) :=
  select (cmpi .slt s (broadcastInDim S900000 ![] bcast_S_S900000 (constantI S_ 32 0#32)))
    (addi s (broadcastInDim S900000 ![] bcast_S_S900000 (constantI S_ 32 100000#32))) s

/-- One round of message passing: row dst(e) of the result collects norm(e) times row src(e) of `lin`. -/
def aggr (s d : (⟨S900000, .i32⟩ : BufTy).Contents (Elt F)) (nrm : (⟨S900000, .f32⟩ : BufTy).Contents (Elt F))
    (lin : (⟨S100000x128, .f32⟩ : BufTy).Contents (Elt F)) : (⟨S100000x128, .f32⟩ : BufTy).Contents (Elt F) :=
  Host.scatterAdd scatter_S100000x128_S900000x1_S900000x128_1_0_0_1
    (broadcastInDim S100000x128 ![] bcast_S_S100000x128 (constant S_ .f32 0x00000000#32))
    (broadcastInDim S900000x1 ![0] bcast_S900000_S900000x1_0 d)
    (mulf (Host.gather gather_S100000x128_S900000x1_S900000x128_1_0_n_n_0_1_1128 lin
            (broadcastInDim S900000x1 ![0] bcast_S900000_S900000x1_0 (wrapIdx s)))
          (broadcastInDim S900000x128 ![0, 1] bcast_S900000x1_S900000x128_0_1
            (broadcastInDim S900000x1 ![0] bcast_S900000_S900000x1_0 nrm)))

/-- max(X + b, 0), the bias a row repeated down the array. -/
def reluB (X : (⟨S100000x128, .f32⟩ : BufTy).Contents (Elt F)) (b : (⟨S128, .f32⟩ : BufTy).Contents (Elt F)) :
    (⟨S100000x128, .f32⟩ : BufTy).Contents (Elt F) :=
  maximumf (addf X (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- The dense product of a 100000 x 128 array with a 128 x 128 weight matrix. -/
def dense (X : (⟨S100000x128, .f32⟩ : BufTy).Contents (Elt F)) (Wm : (⟨S128x128, .f32⟩ : BufTy).Contents (Elt F)) :
    (⟨S100000x128, .f32⟩ : BufTy).Contents (Elt F) :=
  Host.dotGeneral dot_S100000x128_S128x128_S100000x128_1_0_0_1_n_n none X Wm

/-- The output head: X Wf + bf, one number per node. -/
def head (X : (⟨S100000x128, .f32⟩ : BufTy).Contents (Elt F)) (wf : (⟨S128x1, .f32⟩ : BufTy).Contents (Elt F))
    (bf : (⟨S1, .f32⟩ : BufTy).Contents (Elt F)) : (⟨S100000, .f32⟩ : BufTy).Contents (Elt F) :=
  shapeCast S100000 (addf (Host.dotGeneral dot_S100000x128_S128x1_S100000x1_1_0_0_1_n_n none X wf)
    (broadcastInDim S100000x1 ![0, 1] bcast_S1x1_S100000x1_0_1 (broadcastInDim S1x1 ![1] bcast_S1_S1x1_1 bf))) shapeCasts_S100000x1_S100000

/-- The whole network from the shared host values (edge endpoints, norm, gathered embedding) and the weights. -/
def out (s d : (⟨S900000, .i32⟩ : BufTy).Contents (Elt F)) (nrm : (⟨S900000, .f32⟩ : BufTy).Contents (Elt F))
    (h0 : (⟨S100000x128, .f32⟩ : BufTy).Contents (Elt F))
    (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F))
    (wf : (⟨S128x1, .f32⟩ : BufTy).Contents (Elt F)) (bf : (⟨S1, .f32⟩ : BufTy).Contents (Elt F)) :
    (⟨S100000, .f32⟩ : BufTy).Contents (Elt F) :=
  head (reluB (aggr s d nrm (dense (reluB (aggr s d nrm (dense h0 w1)) b1) w2)) b2) wf bf

/-! ## The kernel's blockwise products, as whole-array functions at the exact instance -/

/-- Row (i 0) of the left array at column k, and row k of the weights at column (i 1). -/
abbrev lix (i : S100000x128.Idx) (k : Fin 128) : S100000x128.Idx := fun a => match a with
  | ⟨0, _⟩ => ⟨(i 0).val, (i 0).isLt⟩
  | ⟨1, _⟩ => ⟨k.val, k.isLt⟩
abbrev rix (i : S100000x128.Idx) (k : Fin 128) : S128x128.Idx := fun a => match a with
  | ⟨0, _⟩ => ⟨k.val, k.isLt⟩
  | ⟨1, _⟩ => ⟨(i 1).val, (i 1).isLt⟩
abbrev cix (i : S100000x128.Idx) : S128.Idx := fun a => match a with
  | ⟨0, _⟩ => ⟨(i 1).val, (i 1).isLt⟩
abbrev kix (k : Fin 128) : S128.Idx := fun a => match a with
  | ⟨0, _⟩ => ⟨k.val, k.isLt⟩

/-- Entry i of X Wm as a plain sum. -/
def prod (X : S100000x128.Idx → EReal) (Wm : S128x128.Idx → EReal) : S100000x128.Idx → EReal :=
  fun i => ∑ k : Fin 128, X (lix i k) * Wm (rix i k)

/-- Entry i of max(X + b, 0) Wm + p as a plain sum. -/
def preactProd (X : S100000x128.Idx → EReal) (b : S128.Idx → EReal) (Wm : S128x128.Idx → EReal) (p : S128.Idx → EReal) :
    S100000x128.Idx → EReal :=
  fun i => (∑ k : Fin 128, max (X (lix i k) + b (kix k)) 0 * Wm (rix i k)) + p (cix i)

end Cert.Spec

end
-- ==== Proof.RefStages.lean ====
/-
  The reference, stage by stage, is the network of Spec.

  The reference recomputes the edge endpoints and the normalisation in its second layer; the recomputed values are
  the same functions of the edge list as the first layer's.  With that, its result is the composition
  head (layer (layer emb[x])) of Spec at its own edge endpoints, normalisation and gathered embedding, for any
  float instance.
-/
import proofs.«146276_j85933705659009_1_alg».proof.Proof.RefRead
import proofs.«146276_j85933705659009_1_alg».proof.Proof.Spec

noncomputable section

namespace Cert.RefStages

open Idealize.ShloMosaic Cert.ReferenceIdeal Cert.ReferenceIdeal.Gen Cert.ReferenceIdeal.Read

variable {F : FTy → Type} [FloatOps F]

/-- The second layer's edge sources, edge targets and normalisation are the first layer's. -/
theorem src_again (x1 : (⟨S2x800000, .i32⟩ : BufTy).Contents (Elt F)) : val_main_v59 (F := F) x1 = val_main_v13 x1 := rfl
theorem dst_again (x1 : (⟨S2x800000, .i32⟩ : BufTy).Contents (Elt F)) : val_main_v60 (F := F) x1 = val_main_v14 x1 := rfl
theorem norm_again (x1 : (⟨S2x800000, .i32⟩ : BufTy).Contents (Elt F)) : val_main_v85 (F := F) x1 = val_main_v39 x1 := rfl

/-- The first layer before its bias: the product with W1 aggregated along the edges. -/
theorem stage_pre1 (x0 : (⟨S100000, .i32⟩ : BufTy).Contents (Elt F)) (x1 : (⟨S2x800000, .i32⟩ : BufTy).Contents (Elt F)) (x2 : (⟨S1000x128, .f32⟩ : BufTy).Contents (Elt F)) (x3 : (⟨S128x128, .f32⟩ : BufTy).Contents (Elt F)) :
    val_main_v52 (F := F) x0 x1 x2 x3
      = Cert.Spec.aggr (val_main_v13 x1) (val_main_v14 x1) (val_main_v39 x1) (Cert.Spec.dense (val_main_v10 x0 x2) x3) := rfl

/-- The first layer. -/
theorem stage_act1 (x0 : (⟨S100000, .i32⟩ : BufTy).Contents (Elt F)) (x1 : (⟨S2x800000, .i32⟩ : BufTy).Contents (Elt F)) (x2 : (⟨S1000x128, .f32⟩ : BufTy).Contents (Elt F)) (x3 : (⟨S128x128, .f32⟩ : BufTy).Contents (Elt F)) (x4 : (⟨S128, .f32⟩ : BufTy).Contents (Elt F)) :
    val_main_v56 (F := F) x0 x1 x2 x3 x4
      = Cert.Spec.reluB (Cert.Spec.aggr (val_main_v13 x1) (val_main_v14 x1) (val_main_v39 x1) (Cert.Spec.dense (val_main_v10 x0 x2) x3)) x4 := rfl

/-- The second layer before its bias. -/
theorem stage_pre2 (x0 : (⟨S100000, .i32⟩ : BufTy).Contents (Elt F)) (x1 : (⟨S2x800000, .i32⟩ : BufTy).Contents (Elt F)) (x2 : (⟨S1000x128, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) :
    val_main_v98 (F := F) x0 x1 x2 x3 x4 x5
      = Cert.Spec.aggr (val_main_v13 x1) (val_main_v14 x1) (val_main_v39 x1)
          (Cert.Spec.dense (Cert.Spec.reluB (Cert.Spec.aggr (val_main_v13 x1) (val_main_v14 x1) (val_main_v39 x1) (Cert.Spec.dense (val_main_v10 x0 x2) x3)) x4) x5) := by
  unfold val_main_v98 val_main_v97 val_main_v96 val_main_cst_23 val_main_v95 val_main_v94 val_main_v93 val_main_v92 val_main_v91 val_main_v90
    val_main_v89 val_main_v88 val_main_c_22 val_main_v87 val_main_v86 val_main_c_21 val_main_v57
  rw [stage_act1, norm_again, src_again, dst_again]
  rfl

/-- The reference's result. -/
theorem ref_out (x0 : (⟨S100000, .i32⟩ : BufTy).Contents (Elt F)) (x1 : (⟨S2x800000, .i32⟩ : BufTy).Contents (Elt F)) (x2 : (⟨S1000x128, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x1, .f32⟩ : BufTy).Contents (Elt F)) (x8 : (⟨S1, .f32⟩ : BufTy).Contents (Elt F)) :
    val_main_v107 (F := F) x0 x1 x2 x3 x4 x5 x6 x7 x8
      = Cert.Spec.out (val_main_v13 x1) (val_main_v14 x1) (val_main_v39 x1) (val_main_v10 x0 x2) x3 x4 x5 x6 x7 x8 := by
  unfold val_main_v107 val_main_v106 val_main_v105 val_main_v104 val_main_v103 val_main_v102 val_main_call3_v0 val_main_call3_cst
    val_main_v101 val_main_v100 val_main_v99
  rw [stage_pre2]
  rfl

end Cert.RefStages

end
-- ==== Proof.HostValue.lean ====
/-
  What the host operations between the kernels leave in the buffers the kernels and the result read.

  The kernel's program computes the edge endpoints (with one self loop per node), the symmetric normalisation norm
  and the gathered embedding before its first kernel; between kernels it gathers the rows of the last product at the
  edge sources, scales them by norm and sums them into the rows at the edge targets; before the last kernel it pads
  Wf and bf to 128 columns with zeros; after it, it reads column 0 back.  Each of these is the same composition of
  host operations the reference applies, so each buffer is stated at the reference's own stage function (or at the
  shared whole-array function `aggr`) of the argument arrays, for any float instance.
-/
import proofs.«146276_j85933705659009_1_alg».proof.Proof.Gen.KernelIdeal.Frame
import proofs.«146276_j85933705659009_1_alg».proof.Proof.RefRead
import proofs.«146276_j85933705659009_1_alg».proof.Proof.Spec

set_option maxRecDepth 16384

noncomputable section

namespace Cert.KernelIdeal.HostValue

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-! ## Before the first kernel -/

set_option maxHeartbeats 4000000 in
/-- The edge sources followed by the node ids. -/
theorem W3_src (c : Dev nD) : W3 m ρ c (Proc.devRef .tc main_v5)
    = Cert.ReferenceIdeal.Read.val_main_v13 (F := F) (m ((c : Thread nD τ).loc main_arg1)) := by
  unfold W3
  dsimp only [hostOps0_2, W2, hostOps0_1, W1, hostOps0]
  after_results_simp
  rfl

set_option maxHeartbeats 4000000 in
/-- The edge targets followed by the node ids. -/
theorem W3_dst (c : Dev nD) : W3 m ρ c (Proc.devRef .tc main_v6)
    = Cert.ReferenceIdeal.Read.val_main_v14 (F := F) (m ((c : Thread nD τ).loc main_arg1)) := by
  unfold W3
  dsimp only [hostOps0_2, W2, hostOps0_1, W1, hostOps0]
  after_results_simp
  rfl

set_option maxHeartbeats 4000000 in
/-- The per-edge normalisation dinv(src) * dinv(dst). -/
theorem W3_norm (c : Dev nD) : W3 m ρ c (Proc.devRef .tc main_v31)
    = Cert.ReferenceIdeal.Read.val_main_v39 (F := F) (m ((c : Thread nD τ).loc main_arg1)) := by
  unfold W3
  dsimp only [hostOps0_2, W2, hostOps0_1, W1, hostOps0]
  after_results_simp
  rfl

set_option maxHeartbeats 4000000 in
/-- The embedding rows of the node ids. -/
theorem W3_h0 (c : Dev nD) : W3 m ρ c (Proc.devRef .tc main_v38)
    = Cert.ReferenceIdeal.Read.val_main_v10 (F := F) (m ((c : Thread nD τ).loc main_arg0)) (m ((c : Thread nD τ).loc main_arg2)) := by
  unfold W3
  dsimp only [hostOps0_2, W2, hostOps0_1, W1, hostOps0]
  after_results_simp
  rfl

set_option maxHeartbeats 4000000 in
/-- No operation before the first kernel writes an argument array. -/
theorem W3_arg (c : Dev nD) :
    W3 m ρ c (Proc.devRef .tc main_arg3) = m ((c : Thread nD τ).loc main_arg3)
    ∧ W3 m ρ c (Proc.devRef .tc main_arg4) = m ((c : Thread nD τ).loc main_arg4)
    ∧ W3 m ρ c (Proc.devRef .tc main_arg5) = m ((c : Thread nD τ).loc main_arg5)
    ∧ W3 m ρ c (Proc.devRef .tc main_arg6) = m ((c : Thread nD τ).loc main_arg6)
    ∧ W3 m ρ c (Proc.devRef .tc main_arg7) = m ((c : Thread nD τ).loc main_arg7)
    ∧ W3 m ρ c (Proc.devRef .tc main_arg8) = m ((c : Thread nD τ).loc main_arg8) := by
  unfold W3
  dsimp only [hostOps0_2, W2, hostOps0_1, W1, hostOps0]
  refine ⟨?_, ?_, ?_, ?_, ?_, ?_⟩ <;> after_results_simp <;> rfl

/-! ## Between the first and the second kernel -/

set_option maxHeartbeats 4000000 in
/-- The second kernel's first operand: the first product's rows gathered, scaled and summed along the edges. -/
theorem W5_pre1 (c : Dev nD) : W5 m ρ c (Proc.devRef .tc main_v52)
    = Cert.Spec.aggr (F := F) (Cert.ReferenceIdeal.Read.val_main_v13 (m ((c : Thread nD τ).loc main_arg1)))
        (Cert.ReferenceIdeal.Read.val_main_v14 (m ((c : Thread nD τ).loc main_arg1)))
        (Cert.ReferenceIdeal.Read.val_main_v39 (m ((c : Thread nD τ).loc main_arg1)))
        (W4 m ρ c (Proc.devRef .tc main_v39)) := by
  unfold W5
  dsimp only [hostOps1]
  after_results_simp
  rw [W4_of_ne m ρ c main_v5 (by decide), W4_of_ne m ρ c main_v6 (by decide), W4_of_ne m ρ c main_v31 (by decide),
    W3_src, W3_dst, W3_norm]
  rfl

set_option maxHeartbeats 4000000 in
/-- Its bias, weights and the zero row added after its product. -/
theorem W5_rest (c : Dev nD) :
    W5 m ρ c (Proc.devRef .tc main_arg4) = m ((c : Thread nD τ).loc main_arg4)
    ∧ W5 m ρ c (Proc.devRef .tc main_arg5) = m ((c : Thread nD τ).loc main_arg5)
    ∧ W5 m ρ c (Proc.devRef .tc main_v53) = broadcastInDim S128 ![] bcast_S_S128 (constant (F := F) S_ .f32 0x00000000#32) := by
  unfold W5
  dsimp only [hostOps1]
  refine ⟨?_, ?_, ?_⟩
  · after_results_simp
    rw [W4_of_ne m ρ c main_arg4 (by decide)]
    exact (W3_arg m ρ c).2.1
  · after_results_simp
    rw [W4_of_ne m ρ c main_arg5 (by decide)]
    exact (W3_arg m ρ c).2.2.1
  · after_results_simp

/-- The edge endpoints and norm are still in place when the second kernel has run. -/
theorem W6_edges (c : Dev nD) :
    W6 m ρ c (Proc.devRef .tc main_v5) = Cert.ReferenceIdeal.Read.val_main_v13 (F := F) (m ((c : Thread nD τ).loc main_arg1))
    ∧ W6 m ρ c (Proc.devRef .tc main_v6) = Cert.ReferenceIdeal.Read.val_main_v14 (F := F) (m ((c : Thread nD τ).loc main_arg1))
    ∧ W6 m ρ c (Proc.devRef .tc main_v31) = Cert.ReferenceIdeal.Read.val_main_v39 (F := F) (m ((c : Thread nD τ).loc main_arg1)) := by
  refine ⟨?_, ?_, ?_⟩
  · rw [W6_of_ne m ρ c main_v5 (by decide)]
    unfold W5; dsimp only [hostOps1]; after_results_simp
    rw [W4_of_ne m ρ c main_v5 (by decide), W3_src]
  · rw [W6_of_ne m ρ c main_v6 (by decide)]
    unfold W5; dsimp only [hostOps1]; after_results_simp
    rw [W4_of_ne m ρ c main_v6 (by decide), W3_dst]
  · rw [W6_of_ne m ρ c main_v31 (by decide)]
    unfold W5; dsimp only [hostOps1]; after_results_simp
    rw [W4_of_ne m ρ c main_v31 (by decide), W3_norm]

/-- The arguments the last kernel reads are still as launched when the second kernel has run. -/
theorem W6_arg (c : Dev nD) :
    W6 m ρ c (Proc.devRef .tc main_arg6) = m ((c : Thread nD τ).loc main_arg6)
    ∧ W6 m ρ c (Proc.devRef .tc main_arg7) = m ((c : Thread nD τ).loc main_arg7)
    ∧ W6 m ρ c (Proc.devRef .tc main_arg8) = m ((c : Thread nD τ).loc main_arg8) := by
  refine ⟨?_, ?_, ?_⟩
  · rw [W6_of_ne m ρ c main_arg6 (by decide)]
    unfold W5; dsimp only [hostOps1]; after_results_simp
    rw [W4_of_ne m ρ c main_arg6 (by decide)]
    exact (W3_arg m ρ c).2.2.2.1
  · rw [W6_of_ne m ρ c main_arg7 (by decide)]
    unfold W5; dsimp only [hostOps1]; after_results_simp
    rw [W4_of_ne m ρ c main_arg7 (by decide)]
    exact (W3_arg m ρ c).2.2.2.2.1
  · rw [W6_of_ne m ρ c main_arg8 (by decide)]
    unfold W5; dsimp only [hostOps1]; after_results_simp
    rw [W4_of_ne m ρ c main_arg8 (by decide)]
    exact (W3_arg m ρ c).2.2.2.2.2

/-! ## Between the second and the third kernel -/

set_option maxHeartbeats 4000000 in
/-- The third kernel's first operand: the second product aggregated along the edges. -/
theorem W10_pre2 (c : Dev nD) : W10 m ρ c (Proc.devRef .tc main_v67)
    = Cert.Spec.aggr (F := F) (Cert.ReferenceIdeal.Read.val_main_v13 (m ((c : Thread nD τ).loc main_arg1)))
        (Cert.ReferenceIdeal.Read.val_main_v14 (m ((c : Thread nD τ).loc main_arg1)))
        (Cert.ReferenceIdeal.Read.val_main_v39 (m ((c : Thread nD τ).loc main_arg1)))
        (W6 m ρ c (Proc.devRef .tc main_v54)) := by
  unfold W10
  dsimp only [hostOps2_3, W9, hostOps2_2, W8, hostOps2_1, W7, hostOps2]
  after_results_simp
  rw [(W6_edges m ρ c).1, (W6_edges m ρ c).2.1, (W6_edges m ρ c).2.2]
  rfl

set_option maxHeartbeats 4000000 in
/-- Its bias, and Wf and bf padded with zeros to 128 columns. -/
theorem W10_rest (c : Dev nD) :
    W10 m ρ c (Proc.devRef .tc main_arg6) = m ((c : Thread nD τ).loc main_arg6)
    ∧ W10 m ρ c (Proc.devRef .tc main_v68)
        = pad S128x128 ![0, 0] ![0, 127] ![0, 0] (m ((c : Thread nD τ).loc main_arg7)) (sitofp (F := F) .f32 (constantI S_ 32 0#32)) pads_S128x1_S128x128_000_01270 h_S_
    ∧ W10 m ρ c (Proc.devRef .tc main_v69)
        = pad S128 ![0] ![127] ![0] (m ((c : Thread nD τ).loc main_arg8)) (sitofp (F := F) .f32 (constantI S_ 32 0#32)) pads_S1_S128_01270 h_S_ := by
  unfold W10
  dsimp only [hostOps2_3, W9, hostOps2_2, W8, hostOps2_1, W7, hostOps2]
  refine ⟨?_, ?_, ?_⟩
  · after_results_simp
    exact (W6_arg m ρ c).1
  · after_results_simp
    rw [(W6_arg m ρ c).2.1]
    rfl
  · after_results_simp
    rw [(W6_arg m ρ c).2.2]
    rfl

/-! ## After the third kernel -/

set_option maxHeartbeats 4000000 in
/-- The result is column 0 of the third kernel's output, as a vector. -/
theorem W12_out (c : Dev nD) : W12 m ρ c (Proc.devRef .tc main_v72)
    = shapeCast S100000 (extractStridedSlice S100000x1 ![0, 0] (W11 m ρ c (Proc.devRef .tc main_v70)) slices_S100000x128_S100000x1_0_0)
        shapeCasts_S100000x1_S100000 := by
  unfold W12
  dsimp only [hostOps3]
  after_results_simp
  rfl

end Cert.KernelIdeal.HostValue

end
-- ==== Proof.PayloadAt.lean ====
/-
  The three kernel bodies' arithmetic, read at one entry of the output block.

  Each body stores one value: a matrix product of a 5000 x 128 block with a 128 x 128 weight block, for the second
  and third kernels taken of max(x + b, 0) and followed by a bias row.  Over the extended reals a change of float
  format is the identity and the product into a zero accumulator is the plain sum over the contracted axis, so at
  entry (r, j):

    first kernel              sum over k of x(r, k) * w(k, j)
    second and third kernel   (sum over k of max(x(r, k) + b(k), 0) * w(k, j)) + p(j)
-/
import proofs.«146276_j85933705659009_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayloadAt

open Idealize.ShloMosaic Idealize.ShloMosaic.ValueIdx Cert.KernelIdeal Cert.KernelIdeal.Gen

/-! ## The block product's index maps, axis by axis -/

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into a zero accumulator, at entry (r, j), is the sum over the contracted axis. -/
theorem matmul_zero_at {φ₁ φ₂ : FTy} (a : FVec Ideal S5000x128 φ₁) (b : FVec Ideal S128x128 φ₂) (r : Fin 5000) (j : Fin 128) :
    matmul dot_S5000x128_S128x128_S5000x128_1_0_0_1_n_n none a b (constant S5000x128 .f32 0x00000000#32) (ix2 r j)
      = ∑ k : Fin 128, a (ix2 r k) * b (ix2 k j) := by
  show FloatOps.matmul dot_S5000x128_S128x128_S5000x128_1_0_0_1_n_n none a b (constant S5000x128 .f32 0x00000000#32) (ix2 r j) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r j) ((ValueIdx.contrEquiv1 dot_S5000x128_S128x128_S5000x128_1_0_0_1_n_n 128 rfl rfl).symm k) = ix2 r k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 r j) ((ValueIdx.contrEquiv1 dot_S5000x128_S128x128_S5000x128_1_0_0_1_n_n 128 rfl rfl).symm k) = ix2 k j := funext fun a => Fin.ext (by
    match a with
    | ⟨0, _⟩ => exact (rhs_axis0 _ _).trans hk
    | ⟨1, _⟩ => exact rhs_axis1 _ _)
  rw [el, er]

/-- A bias vector laid out as one row and repeated down the block reads, at (r, j), the vector at j. -/
theorem row_at (v : FVec Ideal S128 .f32) (r : Fin 5000) (j : Fin 128) :
    broadcastTo S5000x128 (shapeCast S1x128 v shapeCasts_S128_S1x128) broadcasts_S1x128_S5000x128 (ix2 r j) = v (ix1 j) := by
  rw [broadcastTo_1b_ab_apply, shapeCast_a_1a_apply]

/-! ## The three stored values -/

/-- The first kernel stores the product of its row block with the weights. -/
theorem k0_pay1_at (v0 : Vec Ideal S5000x128 .f32) (v3 : Vec Ideal S128x128 .f32) (r : Fin 5000) (j : Fin 128) :
    k0_pay1 (F := Ideal) v0 v3 (ix2 r j) = ∑ k : Fin 128, (v0 (ix2 r k) : EReal) * (v3 (ix2 k j) : EReal) := by
  unfold k0_pay1
  rw [matmul_zero_at]
  refine Finset.sum_congr rfl fun k _ => ?_
  rw [truncf_apply, truncf_apply, shapeCast_self]

/-- The second kernel stores the product of max(x + b, 0) with the weights, plus the row p. -/
theorem k1_pay1_at (v0 : Vec Ideal S5000x128 .f32) (v2 : Vec Ideal S128 .f32) (v9 : Vec Ideal S128x128 .f32) (v12 : Vec Ideal S128 .f32)
    (r : Fin 5000) (j : Fin 128) :
    k1_pay1 (F := Ideal) v0 v2 v9 v12 (ix2 r j)
      = (∑ k : Fin 128, max ((v0 (ix2 r k) : EReal) + (v2 (ix1 k) : EReal)) 0 * (v9 (ix2 k j) : EReal)) + (v12 (ix1 j) : EReal) := by
  unfold k1_pay1
  simp only [shapeCast_self]
  rw [addf_apply, matmul_zero_at, row_at]
  refine congrArg (· + (v12 (ix1 j) : EReal)) (Finset.sum_congr rfl fun k _ => ?_)
  rw [truncf_apply, truncf_apply, maximumf_apply, addf_apply, row_at, broadcast_apply]
  show max _ (Ideal.ofBits .f32 0x00000000#32) * _ = _
  rw [Ideal.ofBits_zero_f32]

/-- The third kernel stores the same function of its own operands. -/
theorem k2_pay1_at (v0 : Vec Ideal S5000x128 .f32) (v2 : Vec Ideal S128 .f32) (v9 : Vec Ideal S128x128 .f32) (v13 : Vec Ideal S128 .f32)
    (r : Fin 5000) (j : Fin 128) :
    k2_pay1 (F := Ideal) v0 v2 v9 v13 (ix2 r j)
      = (∑ k : Fin 128, max ((v0 (ix2 r k) : EReal) + (v2 (ix1 k) : EReal)) 0 * (v9 (ix2 k j) : EReal)) + (v13 (ix1 j) : EReal) := by
  unfold k2_pay1
  simp only [shapeCast_self]
  rw [addf_apply, matmul_zero_at, row_at]
  refine congrArg (· + (v13 (ix1 j) : EReal)) (Finset.sum_congr rfl fun k _ => ?_)
  rw [truncf_apply, truncf_apply, maximumf_apply, addf_apply, row_at, broadcast_apply]
  show max _ (Ideal.ofBits .f32 0x00000000#32) * _ = _
  rw [Ideal.ofBits_zero_f32]

end Cert.KernelIdeal.PayloadAt

end
-- ==== Proof.RegionValue0.lean ====
/-
  Region 0 (the first dense product), from blocks to the whole array.

  Grid point t of 20 reads rows 5000 t .. 5000 t + 4999 of the gathered embedding and the whole weight matrix, and
  writes the same rows of the output.  Entry (r, q) of the block it stores is the sum over k of x(r, k) * w(k, q),
  which is entry (5000 t + r, q) of the whole-array product; the 20 blocks tile the 100000 rows, so after the run
  the output array is the whole product.
-/
import proofs.«146276_j85933705659009_1_alg».proof.Proof.Gen.KernelIdeal.Frame
import proofs.«146276_j85933705659009_1_alg».proof.Proof.PayloadAt
import proofs.«146276_j85933705659009_1_alg».proof.Proof.Spec

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.PayloadAt

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The printed index maps over the grid: the row block moves with the point, every other block index is 0. -/
theorem index_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- What point t writes back is block t of the whole product of the arrays the region finds. -/
theorem flushed0 (c : Dev nD) (t : Fin cfg0.N) :
    (dat0 (F := Ideal) V c).flushed 2 t
      = ((cfg0.win 2).blk t).view.read (Elt Ideal) (Cert.Spec.prod (V c main_v38) (V c main_arg3)) := by
  show (cfg0.win 2).cut (grid0.coords t) ((dat0 V c).after 2 t) = _
  rw [after0_2]
  unfold out0_2
  rw [View.canon_unit_zero zeros2]
  simp only [View.ld_unit_zero (S := S5000x128) zeros2, View.ld_unit_zero (S := S128x128) zeros2]
  funext j
  show k0_pay1 (iblk0 V c 0 t) (iblk0 V c 1 t) j
    = Cert.Spec.prod (V c main_v38) (V c main_arg3) (((cfg0.win 2).blk t).view.emb j)
  obtain ⟨r, q, rfl⟩ : ∃ (r : Fin 5000) (q : Fin 128), j = ix2 r q := ⟨j 0, j 1, eq_ix2 j⟩
  refine (k0_pay1_at (iblk0 V c 0 t) (iblk0 V c 1 t) r q).trans ?_
  obtain ⟨e0, e1, e2, e3, e4, e5⟩ := index_facts0 t
  unfold Cert.Spec.prod
  refine Finset.sum_congr rfl fun k _ => ?_
  have h0 : ((cfg0.win 0).blk t).view.emb (ix2 r k) = Cert.Spec.lix (((cfg0.win 2).blk t).view.emb (ix2 r q)) k := by
    funext a; apply Fin.ext
    match a with
    | ⟨0, _⟩ => show win0_0.index t (0 : Fin 2) * 5000 + 1 * r.val = win0_2.index t (0 : Fin 2) * 5000 + 1 * r.val; omega
    | ⟨1, _⟩ => show win0_0.index t (1 : Fin 2) * 128 + 1 * k.val = k.val; omega
  have h1 : ((cfg0.win 1).blk t).view.emb (ix2 k q) = Cert.Spec.rix (((cfg0.win 2).blk t).view.emb (ix2 r q)) k := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  exact congrArg₂ (fun a b : EReal => a * b) (congrArg (V c main_v38) h0) (congrArg (V c main_arg3) h1)

/-- An index of the output array is in point t's block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v39).slice (win0_2.rect t)).set ↔ _
  rw [View.set_slice_whole, Rect.mem_set_unit]
  exact Iff.rfl

/-- Row i0 lies in the block of point i0 / 5000. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  refine ⟨⟨(i 0).val / 5000, by show (i 0).val / 5000 < 20; omega⟩, flush0_2 _, ?_⟩
  rw [mem_blk0]
  obtain ⟨e0, e1, e2, e3, e4, e5⟩ := index_facts0 ⟨(i 0).val / 5000, by show (i 0).val / 5000 < 20; omega⟩
  intro a
  match a with
  | ⟨0, _⟩ => show win0_2.index _ (0 : Fin 2) * 5000 ≤ (i 0).val ∧ (i 0).val < win0_2.index _ (0 : Fin 2) * 5000 + 5000; rw [e5]; show (i 0).val / 5000 * 5000 ≤ (i 0).val ∧ (i 0).val < (i 0).val / 5000 * 5000 + 5000; omega
  | ⟨1, _⟩ => show win0_2.index _ (1 : Fin 2) * 128 ≤ (i 1).val ∧ (i 1).val < win0_2.index _ (1 : Fin 2) * 128 + 128; rw [e4]; omega

/-- After the run the output array of region 0 is the whole product of the arrays the region found. -/
theorem final0 (c : Dev nD) :
    (dat0 (F := Ideal) V c).arrAt 2 cfg0.N = Cert.Spec.prod (V c main_v38) (V c main_arg3) :=
  (dat0 (F := Ideal) V c).arrAt_eq_of_cover 2 (Cert.Spec.prod (V c main_v38) (V c main_arg3)) (fun t _ => flushed0 V c t) cover0

end Cert.KernelIdeal.RegionValue

end
-- ==== Proof.RegionValue12.lean ====
/-
  Regions 1 and 2 (the two fused kernels), from blocks to the whole array.

  Grid point t of 20 reads rows 5000 t .. 5000 t + 4999 of the aggregated array X, the whole bias b, the whole
  128 x 128 weight matrix W and the whole row p, and writes the same rows of the output.  Entry (r, q) of the block
  it stores is (sum over k of max(x(r, k) + b(k), 0) * w(k, q)) + p(q), which is entry (5000 t + r, q) of the
  whole-array function; the 20 blocks tile the 100000 rows.
-/
import proofs.«146276_j85933705659009_1_alg».proof.Proof.Gen.KernelIdeal.Frame
import proofs.«146276_j85933705659009_1_alg».proof.Proof.PayloadAt
import proofs.«146276_j85933705659009_1_alg».proof.Proof.Spec
import proofs.«146276_j85933705659009_1_alg».proof.Proof.RegionValue0

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.PayloadAt

variable (V : (c : Dev nD) → (b : Ref sig .tc) → Buf (Elt Ideal) ((c : Thread nD τ).loc b))

/-! ## Region 1 -/

/-- The printed index maps over the grid: the row block moves with the point, every other block index is 0. -/
theorem index_facts1 : ∀ t : Fin cfg1.N, win1_0.index t (0 : Fin 2) = win1_4.index t (0 : Fin 2)
    ∧ win1_0.index t (1 : Fin 2) = 0
    ∧ win1_1.index t (0 : Fin 1) = 0
    ∧ win1_2.index t (0 : Fin 2) = 0
    ∧ win1_2.index t (1 : Fin 2) = 0
    ∧ win1_3.index t (0 : Fin 1) = 0
    ∧ win1_4.index t (1 : Fin 2) = 0
    ∧ win1_4.index t (0 : Fin 2) = t.val :=
  (by decide +kernel : ∀ t : Fin grid1.N, _)

/-- What point t writes back is block t of the whole-array function of the arrays the region finds. -/
theorem flushed1 (c : Dev nD) (t : Fin cfg1.N) :
    (dat1 (F := Ideal) V c).flushed 4 t
      = ((cfg1.win 4).blk t).view.read (Elt Ideal)
          (Cert.Spec.preactProd (V c main_v52) (V c main_arg4) (V c main_arg5) (V c main_v53)) := by
  show (cfg1.win 4).cut (grid1.coords t) ((dat1 V c).after 4 t) = _
  rw [after1_4]
  unfold out1_4
  rw [View.canon_unit_zero zeros2]
  simp only [View.ld_unit_zero (S := S5000x128) zeros2, View.ld_unit_zero (S := S128x128) zeros2, View.ld_unit_zero (S := S128) zeros1]
  funext j
  show k1_pay1 (iblk1 V c 0 t) (iblk1 V c 1 t) (iblk1 V c 2 t) (iblk1 V c 3 t) j
    = Cert.Spec.preactProd (V c main_v52) (V c main_arg4) (V c main_arg5) (V c main_v53) (((cfg1.win 4).blk t).view.emb j)
  obtain ⟨r, q, rfl⟩ : ∃ (r : Fin 5000) (q : Fin 128), j = ix2 r q := ⟨j 0, j 1, eq_ix2 j⟩
  refine (k1_pay1_at (iblk1 V c 0 t) (iblk1 V c 1 t) (iblk1 V c 2 t) (iblk1 V c 3 t) r q).trans ?_
  obtain ⟨e0, e1, e2, e3, e4, e5, e6, e7⟩ := index_facts1 t
  unfold Cert.Spec.preactProd
  have h3 : ((cfg1.win 3).blk t).view.emb (ix1 q) = Cert.Spec.cix (((cfg1.win 4).blk t).view.emb (ix2 r q)) := by
    funext a; apply Fin.ext
    match a with
    | ⟨0, _⟩ => show win1_3.index t (0 : Fin 1) * 128 + 1 * q.val = win1_4.index t (1 : Fin 2) * 128 + 1 * q.val; omega
  refine congrArg₂ (fun a b : EReal => a + b) (Finset.sum_congr rfl fun k _ => ?_) (congrArg (V c main_v53) h3)
  have h0 : ((cfg1.win 0).blk t).view.emb (ix2 r k) = Cert.Spec.lix (((cfg1.win 4).blk t).view.emb (ix2 r q)) k := by
    funext a; apply Fin.ext
    match a with
    | ⟨0, _⟩ => show win1_0.index t (0 : Fin 2) * 5000 + 1 * r.val = win1_4.index t (0 : Fin 2) * 5000 + 1 * r.val; omega
    | ⟨1, _⟩ => show win1_0.index t (1 : Fin 2) * 128 + 1 * k.val = k.val; omega
  have h1 : ((cfg1.win 1).blk t).view.emb (ix1 k) = Cert.Spec.kix k := by
    funext a; apply Fin.ext
    match a with
    | ⟨0, _⟩ => show win1_1.index t (0 : Fin 1) * 128 + 1 * k.val = k.val; omega
  have h2 : ((cfg1.win 2).blk t).view.emb (ix2 k q) = Cert.Spec.rix (((cfg1.win 4).blk t).view.emb (ix2 r q)) k := by
    funext a; apply Fin.ext
    match a with
    | ⟨0, _⟩ => show win1_2.index t (0 : Fin 2) * 128 + 1 * k.val = k.val; omega
    | ⟨1, _⟩ => show win1_2.index t (1 : Fin 2) * 128 + 1 * q.val = win1_4.index t (1 : Fin 2) * 128 + 1 * q.val; omega
  exact congrArg₂ (fun a b : EReal => a * b)
    (congrArg (fun a : EReal => max a 0)
      (congrArg₂ (fun a b : EReal => a + b) (congrArg (V c main_v52) h0) (congrArg (V c main_arg4) h1)))
    (congrArg (V c main_arg5) h2)

/-- An index of the output array is in point t's block iff each coordinate is in the block's range on its axis. -/
theorem mem_blk1 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v54).slice (win1_4.rect t)).set ↔ _
  rw [View.set_slice_whole, Rect.mem_set_unit]
  exact Iff.rfl

/-- Row i0 lies in the block of point i0 / 5000. -/
theorem cover1 (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  refine ⟨⟨(i 0).val / 5000, by show (i 0).val / 5000 < 20; omega⟩, flush1_4 _, ?_⟩
  rw [mem_blk1]
  obtain ⟨e0, e1, e2, e3, e4, e5, e6, e7⟩ := index_facts1 ⟨(i 0).val / 5000, by show (i 0).val / 5000 < 20; omega⟩
  intro a
  match a with
  | ⟨0, _⟩ => show win1_4.index _ (0 : Fin 2) * 5000 ≤ (i 0).val ∧ (i 0).val < win1_4.index _ (0 : Fin 2) * 5000 + 5000; rw [e7]; show (i 0).val / 5000 * 5000 ≤ (i 0).val ∧ (i 0).val < (i 0).val / 5000 * 5000 + 5000; omega
  | ⟨1, _⟩ => show win1_4.index _ (1 : Fin 2) * 128 ≤ (i 1).val ∧ (i 1).val < win1_4.index _ (1 : Fin 2) * 128 + 128; rw [e6]; omega

/-- After the run the output array of region 1 is the whole-array function of the arrays the region found. -/
theorem final1 (c : Dev nD) :
    (dat1 (F := Ideal) V c).arrAt 4 cfg1.N
      = Cert.Spec.preactProd (V c main_v52) (V c main_arg4) (V c main_arg5) (V c main_v53) :=
  (dat1 (F := Ideal) V c).arrAt_eq_of_cover 4 (Cert.Spec.preactProd (V c main_v52) (V c main_arg4) (V c main_arg5) (V c main_v53))
    (fun t _ => flushed1 V c t) cover1

/-! ## Region 2 -/

/-- The printed index maps over the grid: the row block moves with the point, every other block index is 0. -/
theorem index_facts2 : ∀ t : Fin cfg2.N, win2_0.index t (0 : Fin 2) = win2_4.index t (0 : Fin 2)
    ∧ win2_0.index t (1 : Fin 2) = 0
    ∧ win2_1.index t (0 : Fin 1) = 0
    ∧ win2_2.index t (0 : Fin 2) = 0
    ∧ win2_2.index t (1 : Fin 2) = 0
    ∧ win2_3.index t (0 : Fin 1) = 0
    ∧ win2_4.index t (1 : Fin 2) = 0
    ∧ win2_4.index t (0 : Fin 2) = t.val :=
  (by decide +kernel : ∀ t : Fin grid2.N, _)

/-- What point t writes back is block t of the whole-array function of the arrays the region finds. -/
theorem flushed2 (c : Dev nD) (t : Fin cfg2.N) :
    (dat2 (F := Ideal) V c).flushed 4 t
      = ((cfg2.win 4).blk t).view.read (Elt Ideal)
          (Cert.Spec.preactProd (V c main_v67) (V c main_arg6) (V c main_v68) (V c main_v69)) := by
  show (cfg2.win 4).cut (grid2.coords t) ((dat2 V c).after 4 t) = _
  rw [after2_4]
  unfold out2_4
  rw [View.canon_unit_zero zeros2]
  simp only [View.ld_unit_zero (S := S5000x128) zeros2, View.ld_unit_zero (S := S128x128) zeros2, View.ld_unit_zero (S := S128) zeros1]
  funext j
  show k2_pay1 (iblk2 V c 0 t) (iblk2 V c 1 t) (iblk2 V c 2 t) (iblk2 V c 3 t) j
    = Cert.Spec.preactProd (V c main_v67) (V c main_arg6) (V c main_v68) (V c main_v69) (((cfg2.win 4).blk t).view.emb j)
  obtain ⟨r, q, rfl⟩ : ∃ (r : Fin 5000) (q : Fin 128), j = ix2 r q := ⟨j 0, j 1, eq_ix2 j⟩
  refine (k2_pay1_at (iblk2 V c 0 t) (iblk2 V c 1 t) (iblk2 V c 2 t) (iblk2 V c 3 t) r q).trans ?_
  obtain ⟨e0, e1, e2, e3, e4, e5, e6, e7⟩ := index_facts2 t
  unfold Cert.Spec.preactProd
  have h3 : ((cfg2.win 3).blk t).view.emb (ix1 q) = Cert.Spec.cix (((cfg2.win 4).blk t).view.emb (ix2 r q)) := by
    funext a; apply Fin.ext
    match a with
    | ⟨0, _⟩ => show win2_3.index t (0 : Fin 1) * 128 + 1 * q.val = win2_4.index t (1 : Fin 2) * 128 + 1 * q.val; omega
  refine congrArg₂ (fun a b : EReal => a + b) (Finset.sum_congr rfl fun k _ => ?_) (congrArg (V c main_v69) h3)
  have h0 : ((cfg2.win 0).blk t).view.emb (ix2 r k) = Cert.Spec.lix (((cfg2.win 4).blk t).view.emb (ix2 r q)) k := by
    funext a; apply Fin.ext
    match a with
    | ⟨0, _⟩ => show win2_0.index t (0 : Fin 2) * 5000 + 1 * r.val = win2_4.index t (0 : Fin 2) * 5000 + 1 * r.val; omega
    | ⟨1, _⟩ => show win2_0.index t (1 : Fin 2) * 128 + 1 * k.val = k.val; omega
  have h1 : ((cfg2.win 1).blk t).view.emb (ix1 k) = Cert.Spec.kix k := by
    funext a; apply Fin.ext
    match a with
    | ⟨0, _⟩ => show win2_1.index t (0 : Fin 1) * 128 + 1 * k.val = k.val; omega
  have h2 : ((cfg2.win 2).blk t).view.emb (ix2 k q) = Cert.Spec.rix (((cfg2.win 4).blk t).view.emb (ix2 r q)) k := by
    funext a; apply Fin.ext
    match a with
    | ⟨0, _⟩ => show win2_2.index t (0 : Fin 2) * 128 + 1 * k.val = k.val; omega
    | ⟨1, _⟩ => show win2_2.index t (1 : Fin 2) * 128 + 1 * q.val = win2_4.index t (1 : Fin 2) * 128 + 1 * q.val; omega
  exact congrArg₂ (fun a b : EReal => a * b)
    (congrArg (fun a : EReal => max a 0)
      (congrArg₂ (fun a b : EReal => a + b) (congrArg (V c main_v67) h0) (congrArg (V c main_arg6) h1)))
    (congrArg (V c main_v68) h2)

/-- An index of the output array is in point t's block iff each coordinate is in the block's range on its axis. -/
theorem mem_blk2 (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v70).slice (win2_4.rect t)).set ↔ _
  rw [View.set_slice_whole, Rect.mem_set_unit]
  exact Iff.rfl

/-- Row i0 lies in the block of point i0 / 5000. -/
theorem cover2 (i : S100000x128.Idx) : ∃ t : Fin cfg2.N, (cfg2.win 4).flush t = true ∧ i ∈ ((cfg2.win 4).blk t).view.set := by
  have hi0 : (i 0).val < 100000 := (i 0).isLt
  have hi1 : (i 1).val < 128 := (i 1).isLt
  refine ⟨⟨(i 0).val / 5000, by show (i 0).val / 5000 < 20; omega⟩, flush2_4 _, ?_⟩
  rw [mem_blk2]
  obtain ⟨e0, e1, e2, e3, e4, e5, e6, e7⟩ := index_facts2 ⟨(i 0).val / 5000, by show (i 0).val / 5000 < 20; omega⟩
  intro a
  match a with
  | ⟨0, _⟩ => show win2_4.index _ (0 : Fin 2) * 5000 ≤ (i 0).val ∧ (i 0).val < win2_4.index _ (0 : Fin 2) * 5000 + 5000; rw [e7]; show (i 0).val / 5000 * 5000 ≤ (i 0).val ∧ (i 0).val < (i 0).val / 5000 * 5000 + 5000; omega
  | ⟨1, _⟩ => show win2_4.index _ (1 : Fin 2) * 128 ≤ (i 1).val ∧ (i 1).val < win2_4.index _ (1 : Fin 2) * 128 + 128; rw [e6]; omega

/-- After the run the output array of region 2 is the whole-array function of the arrays the region found. -/
theorem final2 (c : Dev nD) :
    (dat2 (F := Ideal) V c).arrAt 4 cfg2.N
      = Cert.Spec.preactProd (V c main_v67) (V c main_arg6) (V c main_v68) (V c main_v69) :=
  (dat2 (F := Ideal) V c).arrAt_eq_of_cover 4 (Cert.Spec.preactProd (V c main_v67) (V c main_arg6) (V c main_v68) (V c main_v69))
    (fun t _ => flushed2 V c t) cover2

end Cert.KernelIdeal.RegionValue

end
-- ==== Proof.SpecAt.lean ====
/-
  The kernel's blockwise sums against the reference's dense products, entry by entry over the extended reals.
-/
import proofs.«146276_j85933705659009_1_alg».proof.Proof.Spec
import proofs.«146276_j85933705659009_1_alg».proof.Proof.RefRead
import Idealize.ShloMosaic.Lib.ValueIdx
import Idealize.ShloMosaic.Lib.ValueLayout
import Idealize.ShloMosaic.Lib.Pipeline.Value
import Idealize.ShloMosaic.PureOps.Ideal.Laws

noncomputable section

namespace Cert.SpecAt

open Idealize.ShloMosaic Idealize.ShloMosaic.ValueIdx Cert.ReferenceIdeal Cert.ReferenceIdeal.Gen Cert.Spec
open Cert.ReferenceIdeal.Read

/-- The host's product with a 128 x 128 matrix, read at entry i: the contracted axis is the left array's columns and
    the weights' rows, so the entry is the sum over k of Y(i 0, k) * Wm(k, i 1). -/
theorem dense_apply (Y : S100000x128.Idx → EReal) (Wm : S128x128.Idx → EReal) (i : S100000x128.Idx) :
    Cert.Spec.dense (F := Ideal) Y Wm i = ∑ k : Fin 128, Y (lix i k) * Wm (rix i k) := by
  unfold Cert.Spec.dense
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = lix i k := funext fun a => Fin.ext (by
    match a with
    | ⟨0, _⟩ => exact lhs_main_v11_0 _ _
    | ⟨1, _⟩ => exact (lhs_main_v11_1 _ _).trans hk)
  have er : dot_S100000x128_S128x128_S100000x128_1_0_0_1_n_n.rhsIdx i ((ValueIdx.contrEquiv1 dot_S100000x128_S128x128_S100000x128_1_0_0_1_n_n 128 rfl rfl).symm k) = rix i k := funext fun a => Fin.ext (by
    match a with
    | ⟨0, _⟩ => exact (rhs_main_v11_0 _ _).trans hk
    | ⟨1, _⟩ => exact rhs_main_v11_1 _ _)
  rw [el, er]

/-- The bias row repeated down the array, read at entry j: the bias at j's column. -/
theorem biasRows_apply (b : S128.Idx → EReal) (j : S100000x128.Idx) :
    broadcastInDim (α := EReal) S100000x128 ![0, 1] bcast_S1x128_S100000x128_0_1 (broadcastInDim S1x128 ![1] bcast_S128_S1x128_1 b) j
      = b (cix j) := by
  have h1 : ∀ (y : S1x128.Idx → EReal), broadcastInDim (α := EReal) S100000x128 ![0, 1] bcast_S1x128_S100000x128_0_1 y j = y (idx_main_v54 j) := fun y =>
    broadcastInDim_apply _ bcast_S1x128_S100000x128_0_1 y j (idx_main_v54 j) (fun a => match a with
      | ⟨0, _⟩ => by show 0 = if (1 : Nat) = 1 then 0 else (j 0).val; rw [if_pos rfl]
      | ⟨1, _⟩ => by show (j 1).val = if (128 : Nat) = 1 then 0 else (j 1).val; rw [if_neg (by decide)])
  have h2 : broadcastInDim (α := EReal) S1x128 ![1] bcast_S128_S1x128_1 b (idx_main_v54 j) = b (idx_main_v53 (idx_main_v54 j)) :=
    broadcastInDim_apply _ bcast_S128_S1x128_1 b (idx_main_v54 j) (idx_main_v53 (idx_main_v54 j)) (fun a => match a with
      | ⟨0, _⟩ => by show (idx_main_v54 j 1).val = if (128 : Nat) = 1 then 0 else (idx_main_v54 j 1).val; rw [if_neg (by decide)])
  rw [h1, h2]
  exact congrArg b (funext fun a => match a with | ⟨0, _⟩ => rfl)

/-- max(X + b, 0) read at entry j, over the extended reals. -/
theorem reluB_apply (X : S100000x128.Idx → EReal) (b : S128.Idx → EReal) (j : S100000x128.Idx) :
    Cert.Spec.reluB (F := Ideal) X b j = max (X j + b (cix j)) 0 := by
  unfold Cert.Spec.reluB
  show max (X j + broadcastInDim (α := EReal) S100000x128 ![0, 1] bcast_S1x128_S100000x128_0_1 (broadcastInDim S1x128 ![1] bcast_S128_S1x128_1 b) j)
      (broadcastInDim (α := EReal) S100000x128 ![] bcast_S_S100000x128 (constant (F := Ideal) S_ .f32 0x00000000#32) j) = _
  rw [biasRows_apply]
  have h0 : broadcastInDim (α := EReal) S100000x128 ![] bcast_S_S100000x128 (constant (F := Ideal) S_ .f32 0x00000000#32) j = 0 := by
    rw [broadcastInDim_apply _ bcast_S_S100000x128 (constant (F := Ideal) S_ .f32 0x00000000#32) j (idx_main_call1_v0 j) (fun a => a.elim0)]
    exact Ideal.ofBits_zero_f32
  rw [h0]

/-- The column of the entry (i 0, k) is k. -/
theorem cix_lix (i : S100000x128.Idx) (k : Fin 128) : cix (lix i k) = kix k :=
  funext fun a => match a with | ⟨0, _⟩ => rfl

/-- The host's product with a 128 x 1 matrix, read at entry j: the sum over k of Y(j 0, k) * wf(k, j 1). -/
theorem headDot_apply (Y : S100000x128.Idx → EReal) (wf : S128x1.Idx → EReal) (j : S100000x1.Idx) :
    Host.dotGeneral (F := Ideal) (φ₁ := .f32) (φ₂ := .f32) dot_S100000x128_S128x1_S100000x1_1_0_0_1_n_n none Y wf j
      = ∑ k : Fin 128, Y (lidx_main_v103 j k) * wf (ridx_main_v103 j k) := by
  simp only [Host.dotGeneral]
  rw [Ideal.dotGeneral_apply, ← Equiv.sum_comp (ValueIdx.contrEquiv1 dot_S100000x128_S128x1_S100000x1_1_0_0_1_n_n 128 rfl rfl).symm]
  refine Finset.sum_congr rfl fun k _ => ?_
  have hk := ValueIdx.contrEquiv1_symm_val dot_S100000x128_S128x1_S100000x1_1_0_0_1_n_n 128 rfl rfl k
  have el : dot_S100000x128_S128x1_S100000x1_1_0_0_1_n_n.lhsIdx j ((ValueIdx.contrEquiv1 dot_S100000x128_S128x1_S100000x1_1_0_0_1_n_n 128 rfl rfl).symm k) = lidx_main_v103 j k := funext fun a => Fin.ext (by
    match a with
    | ⟨0, _⟩ => exact lhs_main_v103_0 _ _
    | ⟨1, _⟩ => exact (lhs_main_v103_1 _ _).trans hk)
  have er : dot_S100000x128_S128x1_S100000x1_1_0_0_1_n_n.rhsIdx j ((ValueIdx.contrEquiv1 dot_S100000x128_S128x1_S100000x1_1_0_0_1_n_n 128 rfl rfl).symm k) = ridx_main_v103 j k := funext fun a => Fin.ext (by
    match a with
    | ⟨0, _⟩ => exact (rhs_main_v103_0 _ _).trans hk
    | ⟨1, _⟩ => exact rhs_main_v103_1 _ _)
  rw [el, er]

/-- The one-entry bias repeated down the column, read at any entry: the bias's one entry. -/
theorem biasCol_apply (bf : S1.Idx → EReal) (j : S100000x1.Idx) :
    broadcastInDim (α := EReal) S100000x1 ![0, 1] bcast_S1x1_S100000x1_0_1 (broadcastInDim S1x1 ![1] bcast_S1_S1x1_1 bf) j
      = bf (ix1 (0 : Fin 1)) := by
  have h1 : ∀ (y : S1x1.Idx → EReal), broadcastInDim (α := EReal) S100000x1 ![0, 1] bcast_S1x1_S100000x1_0_1 y j = y (idx_main_v105 j) := fun y =>
    broadcastInDim_apply _ bcast_S1x1_S100000x1_0_1 y j (idx_main_v105 j) (fun a => match a with
      | ⟨0, _⟩ => by show 0 = if (1 : Nat) = 1 then 0 else (j 0).val; rw [if_pos rfl]
      | ⟨1, _⟩ => by show 0 = if (1 : Nat) = 1 then 0 else (j 1).val; rw [if_pos rfl])
  have h2 : broadcastInDim (α := EReal) S1x1 ![1] bcast_S1_S1x1_1 bf (idx_main_v105 j) = bf (idx_main_v104 (idx_main_v105 j)) :=
    broadcastInDim_apply _ bcast_S1_S1x1_1 bf (idx_main_v105 j) (idx_main_v104 (idx_main_v105 j)) (fun a => match a with
      | ⟨0, _⟩ => by show 0 = if (1 : Nat) = 1 then 0 else (idx_main_v105 j 1).val; rw [if_pos rfl])
  rw [h1, h2]
  exact congrArg bf (funext fun a => match a with | ⟨0, _⟩ => rfl)

/-- The output head read at node n: the row n of X against wf, plus the bias. -/
theorem head_apply (Y : S100000x128.Idx → EReal) (wf : S128x1.Idx → EReal) (bf : S1.Idx → EReal) (n : Fin 100000) :
    Cert.Spec.head (F := Ideal) Y wf bf (ix1 n)
      = (∑ k : Fin 128, Y (ix2 n k) * wf (ix2 k (0 : Fin 1))) + bf (ix1 (0 : Fin 1)) := by
  unfold Cert.Spec.head
  rw [shapeCast_apply _ shapeCasts_S100000x1_S100000 (ix1 n) (ix2 n (0 : Fin 1))
    (by rewrite [Shape.rowMajor_val_two, Shape.rowMajor_val_one]; show n.val * 1 + 0 = n.val; omega)]
  show Host.dotGeneral (F := Ideal) (φ₁ := .f32) (φ₂ := .f32) dot_S100000x128_S128x1_S100000x1_1_0_0_1_n_n none Y wf (ix2 n (0 : Fin 1))
      + broadcastInDim (α := EReal) S100000x1 ![0, 1] bcast_S1x1_S100000x1_0_1 (broadcastInDim S1x1 ![1] bcast_S1_S1x1_1 bf) (ix2 n (0 : Fin 1)) = _
  rw [headDot_apply, biasCol_apply]
  refine congrArg (fun a : EReal => a + bf (ix1 (0 : Fin 1))) (Finset.sum_congr rfl fun k _ => ?_)
  have el : lidx_main_v103 (ix2 n (0 : Fin 1)) k = ix2 n k := funext fun a => match a with | ⟨0, _⟩ => rfl | ⟨1, _⟩ => rfl
  have er : ridx_main_v103 (ix2 n (0 : Fin 1)) k = ix2 k (0 : Fin 1) := funext fun a => match a with | ⟨0, _⟩ => rfl | ⟨1, _⟩ => rfl
  rw [el, er]

/-- The whole product as a plain sum is the host's dense product. -/
theorem prod_eq_dense (X : S100000x128.Idx → EReal) (Wm : S128x128.Idx → EReal) :
    Cert.Spec.prod X Wm = Cert.Spec.dense (F := Ideal) X Wm := by
  funext i
  rw [dense_apply]
  rfl

/-- With a zero row added after the product, the fused kernel's function is the dense product of max(X + b, 0). -/
theorem preactProd_zero_eq (X : S100000x128.Idx → EReal) (b : S128.Idx → EReal) (Wm : S128x128.Idx → EReal)
    (p : S128.Idx → EReal) (hp : ∀ j, p j = 0) :
    Cert.Spec.preactProd X b Wm p = Cert.Spec.dense (F := Ideal) (Cert.Spec.reluB (F := Ideal) X b) Wm := by
  funext i
  rw [dense_apply]
  unfold Cert.Spec.preactProd
  rw [hp, add_zero]
  refine Finset.sum_congr rfl fun k _ => ?_
  rw [reluB_apply, cix_lix]

/-- Column 0 of the fused kernel's function, for a weight matrix whose column 0 is wf and a row whose entry 0 is bf,
    is the output head. -/
theorem preactProd_head (X : S100000x128.Idx → EReal) (b : S128.Idx → EReal)
    (Wp : S128x128.Idx → EReal) (pb : S128.Idx → EReal) (wf : S128x1.Idx → EReal) (bf : S1.Idx → EReal)
    (hW : ∀ k : Fin 128, Wp (ix2 k (0 : Fin 128)) = wf (ix2 k (0 : Fin 1)))
    (hb : pb (ix1 (0 : Fin 128)) = bf (ix1 (0 : Fin 1))) (n : Fin 100000) :
    Cert.Spec.preactProd X b Wp pb (ix2 n (0 : Fin 128))
      = Cert.Spec.head (F := Ideal) (Cert.Spec.reluB (F := Ideal) X b) wf bf (ix1 n) := by
  rw [head_apply]
  unfold Cert.Spec.preactProd
  have ec : cix (ix2 n (0 : Fin 128)) = ix1 (0 : Fin 128) := funext fun a => match a with | ⟨0, _⟩ => rfl
  rw [ec, hb]
  refine congrArg (fun a : EReal => a + bf (ix1 (0 : Fin 1))) (Finset.sum_congr rfl fun k _ => ?_)
  have el : lix (ix2 n (0 : Fin 128)) k = ix2 n k := funext fun a => match a with | ⟨0, _⟩ => rfl | ⟨1, _⟩ => rfl
  have er : rix (ix2 n (0 : Fin 128)) k = ix2 k (0 : Fin 128) := funext fun a => match a with | ⟨0, _⟩ => rfl | ⟨1, _⟩ => rfl
  have ek : cix (ix2 n k) = kix k := funext fun a => match a with | ⟨0, _⟩ => rfl
  rw [el, er, hW, reluB_apply, ek]

end Cert.SpecAt

end
-- ==== Proof.Bridge.lean ====
/-
  The kernel's result buffer holds the network of Spec.

  Reading the run backwards: the result is column 0 of the third kernel's output; each kernel's output array is its
  blockwise sum over the arrays its region found; those arrays are the aggregation of the previous kernel's output
  (or the gathered embedding) and argument arrays no operation wrote.  Entry by entry over the extended reals the
  blockwise sums are the dense products of the network: the first kernel's directly, the second's because the row it
  adds after its product is zero, the third's because column 0 of the zero-padded Wf is Wf and entry 0 of the
  zero-padded bf is bf.
-/
import proofs.«146276_j85933705659009_1_alg».proof.Proof.HostValue
import proofs.«146276_j85933705659009_1_alg».proof.Proof.RegionValue0
import proofs.«146276_j85933705659009_1_alg».proof.Proof.RegionValue12
import proofs.«146276_j85933705659009_1_alg».proof.Proof.SpecAt
import Idealize.ShloMosaic.Lib.KernelVsHost

set_option maxRecDepth 16384

noncomputable section

namespace Cert.KernelIdeal.Bridge

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- A zero constant repeated along a row is zero at every entry. -/
theorem zero_row (j : S128.Idx) :
    broadcastInDim S128 ![] bcast_S_S128 (constant (F := Ideal) S_ .f32 0x00000000#32) j = 0 := by
  rw [broadcastInDim_apply _ bcast_S_S128 _ j (fun a => a.elim0) (fun a => a.elim0), constant_apply, Ideal.ofBits_zero_f32]

/-- Column 0 of a 100000 x 128 array, sliced off and flattened, reads the array at (n, 0). -/
theorem col0_at (Y : S100000x128.Idx → EReal) (n : Fin 100000) :
    shapeCast S100000 (extractStridedSlice S100000x1 ![0, 0] Y slices_S100000x128_S100000x1_0_0) shapeCasts_S100000x1_S100000 (ix1 n)
      = Y (ix2 n (0 : Fin 128)) := by
  rw [shapeCast_apply _ shapeCasts_S100000x1_S100000 (ix1 n) (ix2 n (0 : Fin 1)) (by
    rw [Shape.rowMajor_val_two, Shape.rowMajor_val_one]; show n.val * 1 + 0 = n.val; omega)]
  exact extractStridedSlice_apply ![0, 0] Y slices_S100000x128_S100000x1_0_0 (ix2 n (0 : Fin 1)) (ix2 n (0 : Fin 128)) (fun a => match a with
    | ⟨0, _⟩ => by show n.val = 0 + n.val; omega
    | ⟨1, _⟩ => by show 0 = 0 + 0; rfl)

/-- Column 0 of Wf padded to 128 columns is Wf. -/
theorem padded_wf_at (wf : S128x1.Idx → EReal) (v : S_.Idx → EReal) (k : Fin 128) :
    pad S128x128 ![0, 0] ![0, 127] ![0, 0] wf v pads_S128x1_S128x128_000_01270 h_S_ (ix2 k (0 : Fin 128)) = wf (ix2 k (0 : Fin 1)) :=
  pad_apply_of_inside ![0, 0] ![0, 127] ![0, 0] wf v pads_S128x1_S128x128_000_01270 h_S_ (ix2 k (0 : Fin 128)) (ix2 k (0 : Fin 1)) (fun a => match a with
    | ⟨0, _⟩ => by show k.val = 0 + k.val * (0 + 1); omega
    | ⟨1, _⟩ => by show 0 = 0 + 0 * (0 + 1); rfl)

/-- Entry 0 of bf padded to 128 entries is bf. -/
theorem padded_bf_at (bf : S1.Idx → EReal) (v : S_.Idx → EReal) :
    pad S128 ![0] ![127] ![0] bf v pads_S1_S128_01270 h_S_ (ix1 (0 : Fin 128)) = bf (ix1 (0 : Fin 1)) :=
  pad_apply_of_inside ![0] ![127] ![0] bf v pads_S1_S128_01270 h_S_ (ix1 (0 : Fin 128)) (ix1 (0 : Fin 1)) (fun a => match a with
    | ⟨0, _⟩ => by show 0 = 0 + 0 * (0 + 1); rfl)

/-- The first kernel's output array is the dense product of the gathered embedding with W1. -/
theorem lin1 (c : Dev nD) : W4 m ρ c (Proc.devRef .tc main_v39)
    = Cert.Spec.dense (F := Ideal)
        (Cert.ReferenceIdeal.Read.val_main_v10 (m ((c : Thread nD τ).loc main_arg0)) (m ((c : Thread nD τ).loc main_arg2)))
        (m ((c : Thread nD τ).loc main_arg3)) := by
  rw [show W4 m ρ c (Proc.devRef .tc main_v39) = (dat0 (V3 m ρ) c).arrAt 2 cfg0.N from W4_arr m ρ c 2,
    Cert.KernelIdeal.RegionValue.final0 (V3 m ρ) c]
  show Cert.Spec.prod (W3 m ρ c (Proc.devRef .tc main_v38)) (W3 m ρ c (Proc.devRef .tc main_arg3)) = _
  rw [Cert.KernelIdeal.HostValue.W3_h0, (Cert.KernelIdeal.HostValue.W3_arg m ρ c).1, Cert.SpecAt.prod_eq_dense]

/-- The second kernel's output array is the dense product of the first layer with W2. -/
theorem lin2 (c : Dev nD) : W6 m ρ c (Proc.devRef .tc main_v54)
    = Cert.Spec.dense (F := Ideal)
        (Cert.Spec.reluB
          (Cert.Spec.aggr (Cert.ReferenceIdeal.Read.val_main_v13 (m ((c : Thread nD τ).loc main_arg1)))
            (Cert.ReferenceIdeal.Read.val_main_v14 (m ((c : Thread nD τ).loc main_arg1)))
            (Cert.ReferenceIdeal.Read.val_main_v39 (m ((c : Thread nD τ).loc main_arg1)))
            (Cert.Spec.dense
              (Cert.ReferenceIdeal.Read.val_main_v10 (m ((c : Thread nD τ).loc main_arg0)) (m ((c : Thread nD τ).loc main_arg2)))
              (m ((c : Thread nD τ).loc main_arg3))))
          (m ((c : Thread nD τ).loc main_arg4)))
        (m ((c : Thread nD τ).loc main_arg5)) := by
  rw [show W6 m ρ c (Proc.devRef .tc main_v54) = (dat1 (V5 m ρ) c).arrAt 4 cfg1.N from W6_arr m ρ c 4,
    Cert.KernelIdeal.RegionValue.final1 (V5 m ρ) c]
  show Cert.Spec.preactProd (W5 m ρ c (Proc.devRef .tc main_v52)) (W5 m ρ c (Proc.devRef .tc main_arg4))
    (W5 m ρ c (Proc.devRef .tc main_arg5)) (W5 m ρ c (Proc.devRef .tc main_v53)) = _
  rw [Cert.KernelIdeal.HostValue.W5_pre1, (Cert.KernelIdeal.HostValue.W5_rest m ρ c).1, (Cert.KernelIdeal.HostValue.W5_rest m ρ c).2.1,
    (Cert.KernelIdeal.HostValue.W5_rest m ρ c).2.2, lin1]
  exact Cert.SpecAt.preactProd_zero_eq _ _ _ _ zero_row

/-- The kernel's result buffer is the network's output. -/
theorem result (c : Dev nD) : W12 m ρ c (Proc.devRef .tc main_v72)
    = Cert.Spec.out (F := Ideal)
        (Cert.ReferenceIdeal.Read.val_main_v13 (m ((c : Thread nD τ).loc main_arg1)))
        (Cert.ReferenceIdeal.Read.val_main_v14 (m ((c : Thread nD τ).loc main_arg1)))
        (Cert.ReferenceIdeal.Read.val_main_v39 (m ((c : Thread nD τ).loc main_arg1)))
        (Cert.ReferenceIdeal.Read.val_main_v10 (m ((c : Thread nD τ).loc main_arg0)) (m ((c : Thread nD τ).loc main_arg2)))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  rw [Cert.KernelIdeal.HostValue.W12_out,
    show W11 m ρ c (Proc.devRef .tc main_v70) = (dat2 (V10 m ρ) c).arrAt 4 cfg2.N from W11_arr m ρ c 4,
    Cert.KernelIdeal.RegionValue.final2 (V10 m ρ) c]
  show shapeCast S100000 (extractStridedSlice S100000x1 ![0, 0]
      (Cert.Spec.preactProd (W10 m ρ c (Proc.devRef .tc main_v67)) (W10 m ρ c (Proc.devRef .tc main_arg6))
        (W10 m ρ c (Proc.devRef .tc main_v68)) (W10 m ρ c (Proc.devRef .tc main_v69))) slices_S100000x128_S100000x1_0_0)
      shapeCasts_S100000x1_S100000 = _
  rw [Cert.KernelIdeal.HostValue.W10_pre2, (Cert.KernelIdeal.HostValue.W10_rest m ρ c).1, (Cert.KernelIdeal.HostValue.W10_rest m ρ c).2.1,
    (Cert.KernelIdeal.HostValue.W10_rest m ρ c).2.2, lin2]
  funext i
  obtain ⟨n, rfl⟩ : ∃ n : Fin 100000, i = ix1 n := ⟨i 0, eq_ix1 i⟩
  rw [col0_at]
  unfold Cert.Spec.out
  exact Cert.SpecAt.preactProd_head _ _ _ _ _ _ (fun k => padded_wf_at _ _ k) (padded_bf_at _ _) n

end Cert.KernelIdeal.Bridge

end
-- ==== Proof.lean ====
/-
  A two-layer graph convolution with a linear head, as three Pallas kernels among host operations, against its
  jnp reference: equal results over the extended reals.

  Both programs compute  out = (layer (layer emb[x] W1 b1) W2 b2) Wf + bf  with
  layer X W b = max(aggr (X W) + b, 0)  and  aggr  the symmetric-normalised sum over the edges (with self loops).
  The edge endpoints, the normalisation, the embedding gather and the aggregation are the same host operations in
  both; the kernel's program computes the normalisation once where the reference computes it per layer.  The three
  dense products differ in form only: the kernel multiplies blocks of 5000 rows (in bf16 on the chip, which is the
  identity over the reals), adds the bias and the max inside the next kernel, adds a zero row after the second
  product, and takes the last product against Wf padded with zero columns, reading column 0 back.  Entry by entry
  these are the reference's products: a sum over the contracted axis; x + 0 = x; column 0 of the padded Wf is Wf.
  No step uses that the inputs are finite.

  The frames of the two kernel programs are the generated ones; the reference's frame is its run with the result
  dropped; the ideal pass rewrote nothing, so `preserves` is trivial.  For `algebraic` the kernel's run is the same
  launch with the result buffer kept (Proof/KernelRun.lean), its value is read back through the host stretches
  (Proof/HostValue.lean) and the three regions (Proof/RegionValue0.lean, Proof/RegionValue12.lean) to the network
  of Proof/Spec.lean (Proof/Bridge.lean, Proof/SpecAt.lean), and the reference's run (Proof/RefRun.lean,
  Proof/RefRead.lean) is the same network (Proof/RefStages.lean).
-/
import proofs.«146276_j85933705659009_1_alg».proof.Defs
import proofs.«146276_j85933705659009_1_alg».proof.Proof.Gen.Kernel
import proofs.«146276_j85933705659009_1_alg».proof.Proof.Gen.Kernel.Skeleton
import proofs.«146276_j85933705659009_1_alg».proof.Proof.Gen.Kernel.Launch
import proofs.«146276_j85933705659009_1_alg».proof.Proof.Gen.Kernel.Points
import proofs.«146276_j85933705659009_1_alg».proof.Proof.Gen.Kernel.Frame
import proofs.«146276_j85933705659009_1_alg».proof.Proof.Gen.KernelIdeal
import proofs.«146276_j85933705659009_1_alg».proof.Proof.Gen.KernelIdeal.Skeleton
import proofs.«146276_j85933705659009_1_alg».proof.Proof.Gen.KernelIdeal.Launch
import proofs.«146276_j85933705659009_1_alg».proof.Proof.Gen.KernelIdeal.Points
import proofs.«146276_j85933705659009_1_alg».proof.Proof.Gen.KernelIdeal.Frame
import proofs.«146276_j85933705659009_1_alg».proof.Proof.Gen.ReferenceIdeal
import proofs.«146276_j85933705659009_1_alg».proof.Proof.Gen.Pre_finite_inputs
import proofs.«146276_j85933705659009_1_alg».proof.Proof.KernelRun
import proofs.«146276_j85933705659009_1_alg».proof.Proof.RefRead
import proofs.«146276_j85933705659009_1_alg».proof.Proof.RefStages
import proofs.«146276_j85933705659009_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the network's output of the (agreeing) argument arrays in the result buffer. -/
theorem algebraic : Cert.algebraic_KernelIdeal_ReferenceIdeal := by
  intro m ρ m' ρ' _ hagree
  refine ⟨fun c => Cert.Spec.out (F := Ideal)
      (Cert.ReferenceIdeal.Read.val_main_v13 (m ((c.tc : Thread Cert.KernelIdeal.nD Cert.KernelIdeal.τ).loc Cert.KernelIdeal.main_arg1)))
      (Cert.ReferenceIdeal.Read.val_main_v14 (m ((c.tc : Thread Cert.KernelIdeal.nD Cert.KernelIdeal.τ).loc Cert.KernelIdeal.main_arg1)))
      (Cert.ReferenceIdeal.Read.val_main_v39 (m ((c.tc : Thread Cert.KernelIdeal.nD Cert.KernelIdeal.τ).loc Cert.KernelIdeal.main_arg1)))
      (Cert.ReferenceIdeal.Read.val_main_v10 (m ((c.tc : Thread Cert.KernelIdeal.nD Cert.KernelIdeal.τ).loc Cert.KernelIdeal.main_arg0)) (m ((c.tc : Thread Cert.KernelIdeal.nD Cert.KernelIdeal.τ).loc Cert.KernelIdeal.main_arg2)))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)),
    ?_, ?_⟩
  · exact (θ_run Cert.KernelIdeal.defs _ _).mono
      (fun r h c => ⟨(h c).1.trans (Cert.KernelIdeal.Bridge.result m ρ c), (h c).2⟩)
      (Cert.KernelIdeal.GenRun.run_main (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v107_eq, Cert.RefStages.ref_out,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
